-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S1024x1024 : Shape := ⟨2, ![1024, 1024]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  main_v23

def fn {F : FTy → Type} [FloatOps F] (main_arg0 : FVec F S65536x1024 .f32) (main_arg1 : FVec F S1024x1024 .f32) (main_arg2 : FVec F S1024x1024 .f32) (main_arg3 : FVec F S1024x1024 .f32) (main_arg4 : FVec F S1024x1024 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S65536x1024 : Shape := ⟨2, ![65536, 1024]⟩
abbrev S1024x1024 : Shape := ⟨2, ![1024, 1024]⟩
abbrev S1024x3072 : Shape := ⟨2, ![1024, 3072]⟩
abbrev S256x1024 : Shape := ⟨2, ![256, 1024]⟩
abbrev S256x64 : Shape := ⟨2, ![256, 64]⟩
abbrev S256x16x64 : Shape := ⟨3, ![256, 16, 64]⟩
abbrev S256x16 : Shape := ⟨2, ![256, 16]⟩
abbrev S256x16x1 : Shape := ⟨3, ![256, 16, 1]⟩
abbrev S256x16x16 : Shape := ⟨3, ![256, 16, 16]⟩

abbrev nBuf : Space → Nat
  | .hbm => 13
  | .vmem => 6
  | .smem => 0
  | _ => 0

abbrev bufTy : (tb : Table) → Fin (tcTables nBuf tb) → BufTy
  | .hbm, ⟨0, _⟩ => ⟨S65536x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x3072, .f32⟩
  | .hbm, ⟨9, _⟩ => ⟨S1024x3072, .bf16⟩
  | .hbm, ⟨10, _⟩ => ⟨S1024x1024, .f32⟩
  | .hbm, ⟨11, _⟩ => ⟨S1024x1024, .bf16⟩
  | .hbm, ⟨12, _⟩ => ⟨S65536x1024, .f32⟩
  | .local _ .vmem, ⟨0, _⟩ => ⟨S256x1024, .f32⟩
  | .local _ .vmem, ⟨1, _⟩ => ⟨S256x1024, .f32⟩
  | .local _ .vmem, ⟨2, _⟩ => ⟨S1024x3072, .bf16⟩
  | .local _ .vmem, ⟨3, _⟩ => ⟨S1024x1024, .bf16⟩
  | .local _ .vmem, ⟨4, _⟩ => ⟨S256x1024, .f32⟩
  | .local _ .vmem, ⟨5, _⟩ => ⟨S256x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S1024x1024_S1024x1024_1_0 : S1024x1024.Transposes [1, 0] S1024x1024
  concatenates_S1024x1024_S1024x1024_S1024x1024_S1024x3072_d1 : Shape.Concatenates [S1024x1024, S1024x1024, S1024x1024] S1024x3072 1
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  inb_S1024x3072_S1024x1024_0_0 : ∀ a, (![0, 0] : Fin 2 → Nat) a + S1024x1024.size a ≤ S1024x3072.size a
  h_S1024x1024 : 0 < S1024x1024.numel
  shapeCasts_S1024x1024_S1024x1024 : S1024x1024.ShapeCasts S1024x1024
  inb_S1024x3072_S1024x1024_0_1024 : ∀ a, (![0, 1024] : Fin 2 → Nat) a + S1024x1024.size a ≤ S1024x3072.size a
  inb_S1024x3072_S1024x1024_0_2048 : ∀ a, (![0, 2048] : Fin 2 → Nat) a + S1024x1024.size a ≤ S1024x3072.size a
  slices_S256x1024_o0_0_S256x64 : S256x1024.Slices ![0, 0] S256x64
  concatenates_S256x64_S256x64_S256x64_S256x64_S256x64_S256x64_S256x64_S256x64_S256x64_S256x64_S256x64_S256x64_S256x64_S256x64_S256x64_S256x64_S256x1024_d1 : Shape.Concatenates [S256x64, S256x64, S256x64, S256x64, S256x64, S256x64, S256x64, S256x64, S256x64, S256x64, S256x64, S256x64, S256x64, S256x64, S256x64, S256x64] S256x1024 1
  shapeCasts_S256x1024_S256x16x64 : S256x1024.ShapeCasts S256x16x64
  reduces_S256x16x64_S256x16 : S256x16x64.Reduces [2] S256x16
  slices_S256x1024_o0_64_S256x64 : S256x1024.Slices ![0, 64] S256x64
  slices_S256x1024_o0_128_S256x64 : S256x1024.Slices ![0, 128] S256x64
  slices_S256x1024_o0_192_S256x64 : S256x1024.Slices ![0, 192] S256x64
  slices_S256x1024_o0_256_S256x64 : S256x1024.Slices ![0, 256] S256x64
  slices_S256x1024_o0_320_S256x64 : S256x1024.Slices ![0, 320] S256x64
  slices_S256x1024_o0_384_S256x64 : S256x1024.Slices ![0, 384] S256x64
  slices_S256x1024_o0_448_S256x64 : S256x1024.Slices ![0, 448] S256x64
  slices_S256x1024_o0_512_S256x64 : S256x1024.Slices ![0, 512] S256x64
  slices_S256x1024_o0_576_S256x64 : S256x1024.Slices ![0, 576] S256x64
  slices_S256x1024_o0_640_S256x64 : S256x1024.Slices ![0, 640] S256x64
  slices_S256x1024_o0_704_S256x64 : S256x1024.Slices ![0, 704] S256x64
  slices_S256x1024_o0_768_S256x64 : S256x1024.Slices ![0, 768] S256x64
  slices_S256x1024_o0_832_S256x64 : S256x1024.Slices ![0, 832] S256x64
  slices_S256x1024_o0_896_S256x64 : S256x1024.Slices ![0, 896] S256x64
  slices_S256x1024_o0_960_S256x64 : S256x1024.Slices ![0, 960] S256x64
  shapeCasts_S256x16_S256x16x1 : S256x16.ShapeCasts S256x16x1
  concatenates_S256x16x1_S256x16x1_S256x16x1_S256x16x1_S256x16x1_S256x16x1_S256x16x1_S256x16x1_S256x16x1_S256x16x1_S256x16x1_S256x16x1_S256x16x1_S256x16x1_S256x16x1_S256x16x1_S256x16x16_d2 : Shape.Concatenates [S256x16x1, S256x16x1, S256x16x1, S256x16x1, S256x16x1, S256x16x1, S256x16x1, S256x16x1, S256x16x1, S256x16x1, S256x16x1, S256x16x1, S256x16x1, S256x16x1, S256x16x1, S256x16x1] S256x16x16 2
  reduces_S256x16x16_S256x16 : S256x16x16.Reduces [2] S256x16
  broadcasts_S256x16x1_S256x16x16 : S256x16x1.Broadcasts S256x16x16
  slices_S256x16x16_o0_0_0_S256x16x1 : S256x16x16.Slices ![0, 0, 0] S256x16x1
  shapeCasts_S256x16x1_S256x16 : S256x16x1.ShapeCasts S256x16
  shapeCasts_S256x16x1_S256x16x1 : S256x16x1.ShapeCasts S256x16x1
  broadcasts_S256x16x1_S256x16x64 : S256x16x1.Broadcasts S256x16x64
  shapeCasts_S256x16x64_S256x1024 : S256x16x64.ShapeCasts S256x1024
  slices_S256x16x16_o0_0_1_S256x16x1 : S256x16x16.Slices ![0, 0, 1] S256x16x1
  slices_S256x16x16_o0_0_2_S256x16x1 : S256x16x16.Slices ![0, 0, 2] S256x16x1
  slices_S256x16x16_o0_0_3_S256x16x1 : S256x16x16.Slices ![0, 0, 3] S256x16x1
  slices_S256x16x16_o0_0_4_S256x16x1 : S256x16x16.Slices ![0, 0, 4] S256x16x1
  slices_S256x16x16_o0_0_5_S256x16x1 : S256x16x16.Slices ![0, 0, 5] S256x16x1
  slices_S256x16x16_o0_0_6_S256x16x1 : S256x16x16.Slices ![0, 0, 6] S256x16x1
  slices_S256x16x16_o0_0_7_S256x16x1 : S256x16x16.Slices ![0, 0, 7] S256x16x1
  slices_S256x16x16_o0_0_8_S256x16x1 : S256x16x16.Slices ![0, 0, 8] S256x16x1
  slices_S256x16x16_o0_0_9_S256x16x1 : S256x16x16.Slices ![0, 0, 9] S256x16x1
  slices_S256x16x16_o0_0_10_S256x16x1 : S256x16x16.Slices ![0, 0, 10] S256x16x1
  slices_S256x16x16_o0_0_11_S256x16x1 : S256x16x16.Slices ![0, 0, 11] S256x16x1
  slices_S256x16x16_o0_0_12_S256x16x1 : S256x16x16.Slices ![0, 0, 12] S256x16x1
  slices_S256x16x16_o0_0_13_S256x16x1 : S256x16x16.Slices ![0, 0, 13] S256x16x1
  slices_S256x16x16_o0_0_14_S256x16x1 : S256x16x16.Slices ![0, 0, 14] S256x16x1
  slices_S256x16x16_o0_0_15_S256x16x1 : S256x16x16.Slices ![0, 0, 15] S256x16x1
  inb_S1024x1024_S1024x1024_0_0 : ∀ a, (![0, 0] : Fin 2 → Nat) a + S1024x1024.size a ≤ S1024x1024.size a
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S65536x1024.size a
  hwx0_0 : ∀ i : grid0.Coords, EltTy.bits .f32 = 32 ∨ (Rect.block (s := S65536x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S65536x1024.size a
  hwx0_3 : ∀ i : grid0.Coords, EltTy.bits .f32 = 32 ∨ (Rect.block (s := S65536x1024) S256x1024.size (cc0_transform_3 i) (hinb0_3 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S1024x1024 : Shape := ⟨2, ![1024, 1024]⟩
abbrev S65536x16x64 : Shape := ⟨3, ![65536, 16, 64]⟩
abbrev S65536x16x16 : Shape := ⟨3, ![65536, 16, 16]⟩
abbrev S_ : Shape := ⟨0, ![]⟩
abbrev S65536x16 : Shape := ⟨2, ![65536, 16]⟩
abbrev S65536x16x1 : Shape := ⟨3, ![65536, 16, 1]⟩

abbrev nBuf : Space → Nat
  | .hbm => 37
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S65536x1024, .f32⟩
  | .hbm, ⟨7, _⟩ => ⟨S1024x1024, .f32⟩
  | .hbm, ⟨8, _⟩ => ⟨S65536x1024, .f32⟩
  | .hbm, ⟨9, _⟩ => ⟨S1024x1024, .f32⟩
  | .hbm, ⟨10, _⟩ => ⟨S65536x1024, .f32⟩
  | .hbm, ⟨11, _⟩ => ⟨S65536x16x64, .f32⟩
  | .hbm, ⟨12, _⟩ => ⟨S65536x16x64, .f32⟩
  | .hbm, ⟨13, _⟩ => ⟨S65536x16x64, .f32⟩
  | .hbm, ⟨14, _⟩ => ⟨S65536x16x16, .f32⟩
  | .hbm, ⟨15, _⟩ => ⟨S_, .f32⟩
  | .hbm, ⟨16, _⟩ => ⟨S_, .f32⟩
  | .hbm, ⟨17, _⟩ => ⟨S65536x16x16, .f32⟩
  | .hbm, ⟨18, _⟩ => ⟨S65536x16x16, .f32⟩
  | .hbm, ⟨19, _⟩ => ⟨S_, .f32⟩
  | .hbm, ⟨20, _⟩ => ⟨S65536x16, .f32⟩
  | .hbm, ⟨21, _⟩ => ⟨S_, .f32⟩
  | .hbm, ⟨22, _⟩ => ⟨S65536x16, .f32⟩
  | .hbm, ⟨23, _⟩ => ⟨S65536x16, .f32⟩
  | .hbm, ⟨24, _⟩ => ⟨S65536x16x1, .f32⟩
  | .hbm, ⟨25, _⟩ => ⟨S65536x16x16, .f32⟩
  | .hbm, ⟨26, _⟩ => ⟨S65536x16x16, .f32⟩
  | .hbm, ⟨27, _⟩ => ⟨S65536x16x16, .f32⟩
  | .hbm, ⟨28, _⟩ => ⟨S_, .f32⟩
  | .hbm, ⟨29, _⟩ => ⟨S65536x16, .f32⟩
  | .hbm, ⟨30, _⟩ => ⟨S65536x16x1, .f32⟩
  | .hbm, ⟨31, _⟩ => ⟨S65536x16x16, .f32⟩
  | .hbm, ⟨32, _⟩ => ⟨S65536x16x16, .f32⟩
  | .hbm, ⟨33, _⟩ => ⟨S65536x16x64, .f32⟩
  | .hbm, ⟨34, _⟩ => ⟨S65536x1024, .f32⟩
  | .hbm, ⟨35, _⟩ => ⟨S1024x1024, .f32⟩
  | .hbm, ⟨36, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]

class Facts₀ : Prop where
  transposes_S1024x1024_S1024x1024_1_0 : S1024x1024.Transposes [1, 0] S1024x1024
  shapeCasts_S65536x1024_S65536x16x64 : S65536x1024.ShapeCasts S65536x16x64
  bcast_S_S65536x16x16 : S_.BroadcastsInDim S65536x16x16 (![] : Fin 0 → Fin S65536x16x16.rank)
  reducesTo_S65536x16x16_S65536x16_d2 : S65536x16x16.ReducesTo [2] S65536x16
  h_S_ : 0 < S_.numel
  bcast_S_S65536x16 : S_.BroadcastsInDim S65536x16 (![] : Fin 0 → Fin S65536x16.rank)
  bcast_S65536x16_S65536x16x1_0_1 : S65536x16.BroadcastsInDim S65536x16x1 (![0, 1] : Fin 2 → Fin S65536x16x1.rank)
  bcast_S65536x16x1_S65536x16x16_0_1_2 : S65536x16x1.BroadcastsInDim S65536x16x16 (![0, 1, 2] : Fin 3 → Fin S65536x16x16.rank)
  shapeCasts_S65536x16x64_S65536x1024 : S65536x16x64.ShapeCasts S65536x1024
  dot_S65536x1024_S1024x1024_S65536x1024_1_0_0_1_n_n_wf : DotDims.WF S65536x1024 S1024x1024 S65536x1024 [1] [0] [0] [1] [] []
  dot_S65536x16x64_S65536x16x64_S65536x16x16_2_2_1_1_0_0_wf : DotDims.WF S65536x16x64 S65536x16x64 S65536x16x16 [2] [2] [1] [1] [0] [0]
  dot_S65536x16x16_S65536x16x64_S65536x16x64_2_1_1_2_0_0_wf : DotDims.WF S65536x16x16 S65536x16x64 S65536x16x64 [2] [1] [1] [2] [0] [0]

variable [Facts₀]

def dot_S65536x1024_S1024x1024_S65536x1024_1_0_0_1_n_n : DotDims S65536x1024 S1024x1024 S65536x1024 where
  lhsContracting := [1]
  rhsContracting := [0]
  lhsNonContracting := [0]
  rhsNonContracting := [1]
  lhsBatch := []
  rhsBatch := []
  wf := dot_S65536x1024_S1024x1024_S65536x1024_1_0_0_1_n_n_wf
def dot_S65536x16x64_S65536x16x64_S65536x16x16_2_2_1_1_0_0 : DotDims S65536x16x64 S65536x16x64 S65536x16x16 where
  lhsContracting := [2]
  rhsContracting := [2]
  lhsNonContracting := [1]
  rhsNonContracting := [1]
  lhsBatch := [0]
  rhsBatch := [0]
  wf := dot_S65536x16x64_S65536x16x64_S65536x16x16_2_2_1_1_0_0_wf
def dot_S65536x16x16_S65536x16x64_S65536x16x64_2_1_1_2_0_0 : DotDims S65536x16x16 S65536x16x64 S65536x16x64 where
  lhsContracting := [2]
  rhsContracting := [1]
  lhsNonContracting := [1]
  rhsNonContracting := [2]
  lhsBatch := [0]
  rhsBatch := [0]
  wf := dot_S65536x16x16_S65536x16x64_S65536x16x64_2_1_1_2_0_0_wf

class Facts : Prop extends Facts₀ where

variable [Facts]
-- ==== Proof.KernelBlockBits.lean ====
/-
  One block of 256 tokens: what the kernel body stores, as one function of the five pieces it loads
  (the tokens' rows `v0`, the three transposed projection matrices `v2`, `v5`, `v8`, and the transposed
  output matrix `v281`). The body's arithmetic is the named payloads; here they are only composed, in the
  order the body computes them: the three projections, the sixteen score columns (each a lane sum), then
  — from the score columns, the value projection and the output matrix alone — the softmax, the sixteen
  accumulated products and the last matrix product (`attnTail`).
-/
import proofs.«402946_j65481071398785_3_alg».proof.Proof.Gen.Kernel.Skeleton

noncomputable section

namespace Cert.Kernel.Hand

open Idealize.ShloMosaic Idealize.SL.Sem Cert.Kernel Cert.Kernel.Gen

variable {F : FTy → Type} [FloatOps F]

/-- From the value projection `v10`, the first fifteen score columns, the sixteenth before its lane sum
    (`v91`) and the output matrix: softmax over the columns, the weighted sum of the value heads, and the
    product with the output matrix. -/
def attnTail (v10 : FVec F S256x1024 .f32) (v17 v22 v27 v32 v37 v42 v47 v52 v57 v62 v67 v72 v77 v82 v87 : FVec F S256x16 .f32)
    (v91 : FVec F S256x16x64 .f32) (v281 : Vec F S1024x1024 .bf16) : FVec F S256x1024 .f32 :=
  let v118 := k0_pay23 v17 v22 v27 v32 v37 v42 v47 v52 v57 v62 v67 v72 v77 v82 v87 v91
  let v139 := k0_pay24 v10 v17 v22 v27 v32 v37 v42 v47 v52 v57 v62 v67 v72 v77 v82 v87 v91
  let v145 := k0_pay25 v17 v22 v27 v32 v37 v42 v47 v52 v57 v62 v67 v72 v77 v82 v87 v91
  let v147 := k0_pay26 v10
  let v199 := k0_pay27 v10 v118 v139 v145 v147
  let v205 := k0_pay28 v118
  let v207 := k0_pay29 v10
  let v259 := k0_pay30 v10 v118 v199 v205 v207
  let v265 := k0_pay31 v118
  let v267 := k0_pay32 v10
  k0_pay1 v10 v118 v259 v265 v267 v281

/-- The whole block from the loaded pieces. -/
def attnBlock (v0 : Vec F S256x1024 .f32) (v2 v5 v8 v281 : Vec F S1024x1024 .bf16) : FVec F S256x1024 .f32 :=
  let v7 := k0_pay3 v0 v5
  let v12 := k0_pay5 v0 v2
  attnTail (k0_pay4 v0 v8) (k0_pay6 v0 v2 v5) (k0_pay7 v0 v2 v5) (k0_pay8 v0 v2 v5) (k0_pay9 v0 v2 v5) (k0_pay10 v0 v2 v5)
    (k0_pay12 (k0_pay11 v0 v2 v5)) (k0_pay13 v7 v12) (k0_pay14 v7 v12) (k0_pay15 v7 v12) (k0_pay16 v7 v12) (k0_pay17 v7 v12)
    (k0_pay18 v7 v12) (k0_pay19 v7 v12) (k0_pay20 v7 v12) (k0_pay21 v7 v12) (k0_pay22 v7 v12) v281

end Cert.Kernel.Hand

end
-- ==== Proof.KernelFrameBits.lean ====
/-
  The frame of the program: it runs to the end, faults nowhere, and leaves its five argument arrays as they
  were; and, for the value claim, what its result array holds at the end.
  @main is seven host operations (three transposes, their concatenation along the columns, a change of
  format, a fourth transpose and its change of format) followed by one pipelined region over 256 grid
  points. None of the host operations writes an argument. At point `t` the region's body loads the block of
  256 token rows, three column slices of the concatenated matrix and the whole output matrix, and stores one
  block of 256 result rows that covers its staging buffer; it also loads that buffer once before storing into
  it and uses nothing of what it read. So after the body each input buffer holds its block still, and the
  output buffer holds `attnBlock` of the loaded pieces, whatever it held before.
-/
import proofs.«402946_j65481071398785_3_alg».proof.Proof.Gen.Kernel.Launch
import proofs.«402946_j65481071398785_3_alg».proof.Proof.Gen.Kernel.Skeleton
import proofs.«402946_j65481071398785_3_alg».proof.Proof.Gen.Kernel.Points
import proofs.«402946_j65481071398785_3_alg».proof.Proof.KernelBlockBits
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the seven host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run to the pipeline's post -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## The body's accesses -/

/-- The whole block of token rows (and of result rows). -/
abbrev rRows : Rect S256x1024 := Rect.unit (s := S256x1024) ![0, 0] S256x1024.size inb_S256x1024_S256x1024_0_0
/-- The three column slices of the concatenated matrix. -/
abbrev rQ : Rect S1024x3072 := Rect.unit (s := S1024x3072) ![0, 0] S1024x1024.size inb_S1024x3072_S1024x1024_0_0
abbrev rK : Rect S1024x3072 := Rect.unit (s := S1024x3072) ![0, 1024] S1024x1024.size inb_S1024x3072_S1024x1024_0_1024
abbrev rV : Rect S1024x3072 := Rect.unit (s := S1024x3072) ![0, 2048] S1024x1024.size inb_S1024x3072_S1024x1024_0_2048
/-- The whole output matrix. -/
abbrev rO : Rect S1024x1024 := Rect.unit (s := S1024x1024) ![0, 0] S1024x1024.size inb_S1024x1024_S1024x1024_0_0

/-! ## What the body leaves in the output window's buffer -/

/-- The output staging buffer after the body, from the input windows' blocks: its one store. -/
def outRows (x0 : Vec F S256x1024 .f32) (x1 : Vec F S1024x3072 .bf16) (x2 : Vec F S1024x1024 .bf16) : Vec F S256x1024 .f32 :=
  View.canon [⟨rRows, attnBlock (View.ld x0 rRows) (View.ld x1 rQ) (View.ld x1 rK) (View.ld x1 rV) (View.ld x2 rO)⟩]

/-- The one store covers the buffer. -/
theorem coverRows (p0 : Vec F S256x1024 .f32) (y : S256x1024.Idx) :
    ∃ pc ∈ ([⟨rRows, p0⟩] : List (View.Piece (Elt F) S256x1024 .f32)), y ∈ pc.1.set :=
  View.cover_of_tiled [⟨rRows, p0⟩] S256x1024.size (by rfl) y

/-! ## The body's triple -/

set_option maxHeartbeats 4000000 in
theorem sound_kernel (c : Dev nD) (E : Set ℕ) (i : grid0.Coords) (arg1 : Memref sig .tc .vmem S256x1024 .f32) (harg1 : arg1.IsWhole) (arg2 : Memref sig .tc .vmem S1024x3072 .bf16) (harg2 : arg2.IsWhole) (arg3 : Memref sig .tc .vmem S1024x1024 .bf16) (harg3 : arg3.IsWhole) (arg4 : Memref sig .tc .vmem S256x1024 .f32) (harg4 : arg4.IsWhole)
    (x0 : Vec F S256x1024 .f32) (x1 : Vec F S1024x3072 .bf16) (x2 : Vec F S1024x1024 .bf16) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (outRows x0 x1 x2)) -∗ K ⟨⟩))
      ⊢ wp frame (wpE (defs₀ (F := F)) Variants.none c none) E (cc0__attn_kernel i arg1 harg1 arg2 harg2 arg3 harg3 arg4 harg4) K := by
  simp only [cc0__attn_kernel_eq_skeleton]; unfold cc0__attn_kernel_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (coverRows _)

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outRows (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outRows (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Hand

end
-- ==== Proof.KernelBlock.lean ====
/-
  One block of 256 tokens: what the kernel body stores, as one function of the five pieces it loads
  (the tokens' rows `v0`, the three transposed projection matrices `v2`, `v5`, `v8`, and the transposed
  output matrix `v281`). The body's arithmetic is the named payloads; here they are only composed, in the
  order the body computes them: the three projections, the sixteen score columns (each a lane sum), then
  — from the score columns, the value projection and the output matrix alone — the softmax, the sixteen
  accumulated products and the last matrix product (`attnTail`).
-/
import proofs.«402946_j65481071398785_3_alg».proof.Proof.Gen.KernelIdeal.Skeleton

noncomputable section

namespace Cert.KernelIdeal.Hand

open Idealize.ShloMosaic Idealize.SL.Sem Cert.KernelIdeal Cert.KernelIdeal.Gen

variable {F : FTy → Type} [FloatOps F]

/-- From the value projection `v10`, the first fifteen score columns, the sixteenth before its lane sum
    (`v91`) and the output matrix: softmax over the columns, the weighted sum of the value heads, and the
    product with the output matrix. -/
def attnTail (v10 : FVec F S256x1024 .f32) (v17 v22 v27 v32 v37 v42 v47 v52 v57 v62 v67 v72 v77 v82 v87 : FVec F S256x16 .f32)
    (v91 : FVec F S256x16x64 .f32) (v281 : Vec F S1024x1024 .bf16) : FVec F S256x1024 .f32 :=
  let v118 := k0_pay23 v17 v22 v27 v32 v37 v42 v47 v52 v57 v62 v67 v72 v77 v82 v87 v91
  let v139 := k0_pay24 v10 v17 v22 v27 v32 v37 v42 v47 v52 v57 v62 v67 v72 v77 v82 v87 v91
  let v145 := k0_pay25 v17 v22 v27 v32 v37 v42 v47 v52 v57 v62 v67 v72 v77 v82 v87 v91
  let v147 := k0_pay26 v10
  let v199 := k0_pay27 v10 v118 v139 v145 v147
  let v205 := k0_pay28 v118
  let v207 := k0_pay29 v10
  let v259 := k0_pay30 v10 v118 v199 v205 v207
  let v265 := k0_pay31 v118
  let v267 := k0_pay32 v10
  k0_pay1 v10 v118 v259 v265 v267 v281

/-- The whole block from the loaded pieces. -/
def attnBlock (v0 : Vec F S256x1024 .f32) (v2 v5 v8 v281 : Vec F S1024x1024 .bf16) : FVec F S256x1024 .f32 :=
  let v7 := k0_pay3 v0 v5
  let v12 := k0_pay5 v0 v2
  attnTail (k0_pay4 v0 v8) (k0_pay6 v0 v2 v5) (k0_pay7 v0 v2 v5) (k0_pay8 v0 v2 v5) (k0_pay9 v0 v2 v5) (k0_pay10 v0 v2 v5)
    (k0_pay12 (k0_pay11 v0 v2 v5)) (k0_pay13 v7 v12) (k0_pay14 v7 v12) (k0_pay15 v7 v12) (k0_pay16 v7 v12) (k0_pay17 v7 v12)
    (k0_pay18 v7 v12) (k0_pay19 v7 v12) (k0_pay20 v7 v12) (k0_pay21 v7 v12) (k0_pay22 v7 v12) v281

end Cert.KernelIdeal.Hand

end
-- ==== Proof.KernelFrame.lean ====
/-
  The frame of the program: it runs to the end, faults nowhere, and leaves its five argument arrays as they
  were; and, for the value claim, what its result array holds at the end.
  @main is seven host operations (three transposes, their concatenation along the columns, a change of
  format, a fourth transpose and its change of format) followed by one pipelined region over 256 grid
  points. None of the host operations writes an argument. At point `t` the region's body loads the block of
  256 token rows, three column slices of the concatenated matrix and the whole output matrix, and stores one
  block of 256 result rows that covers its staging buffer; it also loads that buffer once before storing into
  it and uses nothing of what it read. So after the body each input buffer holds its block still, and the
  output buffer holds `attnBlock` of the loaded pieces, whatever it held before.
-/
import proofs.«402946_j65481071398785_3_alg».proof.Proof.Gen.KernelIdeal.Launch
import proofs.«402946_j65481071398785_3_alg».proof.Proof.Gen.KernelIdeal.Skeleton
import proofs.«402946_j65481071398785_3_alg».proof.Proof.Gen.KernelIdeal.Points
import proofs.«402946_j65481071398785_3_alg».proof.Proof.KernelBlock
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the seven host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run to the pipeline's post -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## The body's accesses -/

/-- The whole block of token rows (and of result rows). -/
abbrev rRows : Rect S256x1024 := Rect.unit (s := S256x1024) ![0, 0] S256x1024.size inb_S256x1024_S256x1024_0_0
/-- The three column slices of the concatenated matrix. -/
abbrev rQ : Rect S1024x3072 := Rect.unit (s := S1024x3072) ![0, 0] S1024x1024.size inb_S1024x3072_S1024x1024_0_0
abbrev rK : Rect S1024x3072 := Rect.unit (s := S1024x3072) ![0, 1024] S1024x1024.size inb_S1024x3072_S1024x1024_0_1024
abbrev rV : Rect S1024x3072 := Rect.unit (s := S1024x3072) ![0, 2048] S1024x1024.size inb_S1024x3072_S1024x1024_0_2048
/-- The whole output matrix. -/
abbrev rO : Rect S1024x1024 := Rect.unit (s := S1024x1024) ![0, 0] S1024x1024.size inb_S1024x1024_S1024x1024_0_0

/-! ## What the body leaves in the output window's buffer -/

/-- The output staging buffer after the body, from the input windows' blocks: its one store. -/
def outRows (x0 : Vec F S256x1024 .f32) (x1 : Vec F S1024x3072 .bf16) (x2 : Vec F S1024x1024 .bf16) : Vec F S256x1024 .f32 :=
  View.canon [⟨rRows, attnBlock (View.ld x0 rRows) (View.ld x1 rQ) (View.ld x1 rK) (View.ld x1 rV) (View.ld x2 rO)⟩]

/-- The one store covers the buffer. -/
theorem coverRows (p0 : Vec F S256x1024 .f32) (y : S256x1024.Idx) :
    ∃ pc ∈ ([⟨rRows, p0⟩] : List (View.Piece (Elt F) S256x1024 .f32)), y ∈ pc.1.set :=
  View.cover_of_tiled [⟨rRows, p0⟩] S256x1024.size (by rfl) y

/-! ## The body's triple -/

set_option maxHeartbeats 4000000 in
theorem sound_kernel (c : Dev nD) (E : Set ℕ) (i : grid0.Coords) (arg1 : Memref sig .tc .vmem S256x1024 .f32) (harg1 : arg1.IsWhole) (arg2 : Memref sig .tc .vmem S1024x3072 .bf16) (harg2 : arg2.IsWhole) (arg3 : Memref sig .tc .vmem S1024x1024 .bf16) (harg3 : arg3.IsWhole) (arg4 : Memref sig .tc .vmem S256x1024 .f32) (harg4 : arg4.IsWhole)
    (x0 : Vec F S256x1024 .f32) (x1 : Vec F S1024x3072 .bf16) (x2 : Vec F S1024x1024 .bf16) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (outRows x0 x1 x2)) -∗ K ⟨⟩))
      ⊢ wp frame (wpE (defs₀ (F := F)) Variants.none c none) E (cc0__attn_kernel i arg1 harg1 arg2 harg2 arg3 harg3 arg4 harg4) K := by
  simp only [cc0__attn_kernel_eq_skeleton]; unfold cc0__attn_kernel_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (coverRows _)

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outRows (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outRows (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Hand

end
-- ==== Proof.AttnSpec.lean ====
/-
  Per-token attention across the heads, as plain functions of a token's row and the four weight matrices,
  over the extended reals. A row has 1024 entries, read as 16 heads of 64 lanes: entry `h * 64 + d` is lane
  `d` of head `h`. With `q = x·Wqᵀ`, `k = x·Wkᵀ`, `v = x·Wvᵀ` the score of heads `(h, g)` is the lane sum of
  `q[h,·] · k[g,·]` scaled by `1/√64`; each row of scores is turned into weights by the softmax
  `exp (s − max s) / ∑ exp (s − max s)`; the mixed row is `∑_g weight[h,g] · v[g,·]`, and the result is the
  mixed row times `Woᵀ`.
  Two spellings of the score are given: one multiplies `q` by the literal `0.125` before the lane sum, the
  other divides the lane sum by `√64`. On finite rows they are the same number (`√64 = 8`, `0.125 = 1/8`,
  and a finite factor moves across a finite sum), so the two whole rows agree (`rowK_eq_rowR`).
-/
import Idealize.ShloMosaic.PureOps.Ideal
import Idealize.ShloMosaic.PureOps.Ideal.Laws

noncomputable section

namespace Cert.AttnSpec

open Idealize.ShloMosaic

/-- A token's row of 1024 entries. -/
abbrev Row := Fin 1024 → EReal
/-- A weight matrix, `W e k` the entry at output feature `e`, input feature `k`. -/
abbrev Mat := Fin 1024 → Fin 1024 → EReal
/-- A 16 × 16 table indexed by a pair of heads. -/
abbrev Heads := Fin 16 → Fin 16 → EReal

/-- Lane `d` of head `h`. -/
def hd (h : Fin 16) (d : Fin 64) : Fin 1024 := ⟨h.val * 64 + d.val, by omega⟩
/-- The head an entry belongs to. -/
def headOf (j : Fin 1024) : Fin 16 := ⟨j.val / 64, by omega⟩
/-- The lane of an entry inside its head. -/
def laneOf (j : Fin 1024) : Fin 64 := ⟨j.val % 64, Nat.mod_lt _ (by norm_num)⟩

/-- The row times the transposed matrix: `(x · Wᵀ)[e] = ∑ₖ x[k] · W[e,k]`. -/
def proj (xr : Row) (W : Mat) : Row := fun e => ∑ k : Fin 1024, xr k * W e k

/-- The literal `0.125`. -/
abbrev eighth : EReal := Ideal.ofBits .f32 0x3E000000#32
/-- The literal `64.0`. -/
abbrev sixtyFour : EReal := Ideal.ofBits .f32 0x42800000#32
/-- The literal `-∞`. -/
abbrev negInf : EReal := Ideal.ofBits .f32 0xFF800000#32

/-- Scores with `q` scaled by `0.125` before the lane sum. -/
def scoreK (q kk : Row) : Heads := fun h g => ∑ d : Fin 64, (q (hd h d) * eighth) * kk (hd g d)
/-- Scores with the lane sum divided by `√64`. -/
def scoreR (q kk : Row) : Heads := fun h g => Ideal.div (∑ d : Fin 64, q (hd h d) * kk (hd g d)) (Ideal.sqrt sixtyFour)

/-- A row of scores' maximum, folded from `-∞`. -/
def rowMax (s : Heads) (h : Fin 16) : EReal := (Finset.univ : Finset (Fin 16)).fold max negInf (s h)
/-- The exponential of a score less its row's maximum. -/
def expo (s : Heads) : Heads := fun h g => Ideal.exp (s h g - rowMax s h)
/-- The softmax weights of each row of scores. -/
def soft (s : Heads) : Heads := fun h g => Ideal.div (expo s h g) (∑ g' : Fin 16, expo s h g')
/-- Each head's lanes mixed over the heads by the weights. -/
def mix (a : Heads) (vv : Row) : Row := fun j => ∑ g : Fin 16, a (headOf j) g * vv (hd g (laneOf j))

/-- The whole row, scores in the first spelling. -/
def rowK (xr : Row) (Wq Wk Wv Wo : Mat) : Row :=
  proj (mix (soft (scoreK (proj xr Wq) (proj xr Wk))) (proj xr Wv)) Wo
/-- The whole row, scores in the second spelling. -/
def rowR (xr : Row) (Wq Wk Wv Wo : Mat) : Row :=
  proj (mix (soft (scoreR (proj xr Wq) (proj xr Wk))) (proj xr Wv)) Wo

/-- `-∞` is the bottom of the extended reals. -/
theorem negInf_eq : negInf = ⊥ := by
  show Ideal.ofBits .f32 0xFF800000#32 = ⊥
  simp [Ideal.ofBits, Ideal.ieee]

/-- The literal `0.125` is the real `1/8`. -/
theorem eighth_eq : eighth = ((1 / 8 : ℝ) : EReal) := by
  show Ideal.ofBits .f32 0x3E000000#32 = _
  simp [Ideal.ofBits, Ideal.ieee, -EReal.coe_mul]; norm_num

/-- The literal `64.0` is the real `64`. -/
theorem sixtyFour_eq : sixtyFour = ((64 : ℝ) : EReal) := by
  show Ideal.ofBits .f32 0x42800000#32 = _
  simp [Ideal.ofBits, Ideal.ieee, -EReal.coe_mul]; norm_num

/-- `√64 = 8`. -/
theorem sqrt_sixtyFour : Ideal.sqrt sixtyFour = ((8 : ℝ) : EReal) := by
  rw [sixtyFour_eq, Ideal.sqrt_coe, if_neg (by norm_num)]
  have h : Real.sqrt 64 = 8 := by
    rw [show (64 : ℝ) = 8 ^ 2 by norm_num, Real.sqrt_sq (by norm_num)]
  rw [h]

/-- A finite sum of reals, read in the extended reals, is the sum of the terms read there. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite row times a finite matrix is finite at every entry. -/
theorem proj_finite (xr : Row) (W : Mat) (hx : ∀ k, ∃ r : ℝ, xr k = (r : EReal))
    (hW : ∀ e k, ∃ r : ℝ, W e k = (r : EReal)) (e : Fin 1024) : ∃ r : ℝ, proj xr W e = (r : EReal) := by
  choose x hx using hx
  choose w hw using hW
  refine ⟨∑ k : Fin 1024, x k * w e k, ?_⟩
  unfold proj
  rw [coe_sum]
  refine Finset.sum_congr rfl fun k _ => ?_
  rw [hx, hw, EReal.coe_mul]

/-- On finite rows the two spellings of the score are the same number: the factor `1/8` moves
    across the finite lane sum, and dividing by `√64 = 8` is multiplying by `1/8`. -/
theorem scoreK_eq_scoreR (q kk : Row) (hq : ∀ j, ∃ r : ℝ, q j = (r : EReal))
    (hk : ∀ j, ∃ r : ℝ, kk j = (r : EReal)) : scoreK q kk = scoreR q kk := by
  choose a ha using hq
  choose b hb using hk
  funext h g
  unfold scoreK scoreR
  rw [sqrt_sixtyFour, Ideal.div_coe (by norm_num), eighth_eq]
  have h1 : ∑ d : Fin 64, (q (hd h d) * ((1 / 8 : ℝ) : EReal)) * kk (hd g d)
      = ∑ d : Fin 64, ((a (hd h d) * (1 / 8) * b (hd g d) : ℝ) : EReal) :=
    Finset.sum_congr rfl fun d _ => by rw [ha, hb, ← EReal.coe_mul, ← EReal.coe_mul]
  have h2 : ∑ d : Fin 64, q (hd h d) * kk (hd g d)
      = ∑ d : Fin 64, ((a (hd h d) * b (hd g d) : ℝ) : EReal) :=
    Finset.sum_congr rfl fun d _ => by rw [ha, hb, ← EReal.coe_mul]
  rw [h1, h2, ← coe_sum, ← coe_sum, ← EReal.coe_mul, Finset.sum_mul]
  congr 1
  exact Finset.sum_congr rfl fun d _ => by ring

/-- On a finite row and finite `Wq`, `Wk` the two spellings of the score agree, hence the two rows. -/
theorem rowK_eq_rowR (xr : Row) (Wq Wk Wv Wo : Mat)
    (hx : ∀ k, ∃ r : ℝ, xr k = (r : EReal))
    (hq : ∀ e k, ∃ r : ℝ, Wq e k = (r : EReal)) (hk : ∀ e k, ∃ r : ℝ, Wk e k = (r : EReal)) :
    rowK xr Wq Wk Wv Wo = rowR xr Wq Wk Wv Wo := by
  unfold rowK rowR
  rw [scoreK_eq_scoreR _ _ (proj_finite xr Wq hx hq) (proj_finite xr Wk hx hk)]

end Cert.AttnSpec

end
-- ==== Proof.KernelHeadValue.lean ====
/-
  The head of a block read at one entry. At token `p` of the block, with `x = v0 (p, ·)`: the value
  projection's entry `j` is `∑ₖ x[k] · v8 (k, j)` (a matrix product into the zero accumulator; the change of
  format before it is the identity on the extended reals); and score column `g` at head `h` is the lane sum over
  `d` of `(q (h·64+d) · 0.125) · k (g·64+d)`, where `q` and `k` are the products of `x` with `v2` and `v5`: the
  body tiles head `g`'s 64 lanes of `k` sixteen times along the row, multiplies by the scaled `q`, regroups the
  row as 16 × 64 and sums the last axis. The sixteenth column is given before its lane sum.
-/
import proofs.«402946_j65481071398785_3_alg».proof.Proof.KernelBlock
import proofs.«402946_j65481071398785_3_alg».proof.Proof.AttnSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Idealize.ShloMosaic Idealize.SL.Sem Cert.KernelIdeal Cert.KernelIdeal.Gen Idealize.ShloMosaic.ValueIdx

/-! ## A matrix product into the zero accumulator, read at an entry -/

theorem lhs_dot_0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem lhs_dot_1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
theorem rhs_dot_0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
theorem rhs_dot_1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- The product of a 256 × 1024 block with a 1024 × 1024 matrix into the zero accumulator: entry (p, j) is
    the sum over k of x (p, k) · w (k, j). -/
theorem matmul_zero_apply (x : FVec Ideal S256x1024 .bf16) (w : FVec Ideal S1024x1024 .bf16) (p : Fin 256) (j : Fin 1024) :
    matmul dot_S256x1024_S1024x1024_S256x1024_1_0_0_1_n_n none x w (constant (F := Ideal) S256x1024 .f32 0x00000000#32) (ix2 p j)
      = ∑ k : Fin 1024, x (ix2 p k) * w (ix2 k j) := by
  simp only [matmul]
  rw [Ideal.matmul_constant_zero_apply, ← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 p j) ((contrEquiv1 dot_S256x1024_S1024x1024_S256x1024_1_0_0_1_n_n 1024 rfl rfl).symm k) = ix2 p k := funext fun a => Fin.ext (by
    match a with
    | ⟨0, _⟩ => exact lhs_dot_0 _ _
    | ⟨1, _⟩ => exact (lhs_dot_1 _ _).trans hk)
  have er : dot_S256x1024_S1024x1024_S256x1024_1_0_0_1_n_n.rhsIdx (ix2 p j) ((contrEquiv1 dot_S256x1024_S1024x1024_S256x1024_1_0_0_1_n_n 1024 rfl rfl).symm k) = ix2 k j := funext fun a => Fin.ext (by
    match a with
    | ⟨0, _⟩ => exact (rhs_dot_0 _ _).trans hk
    | ⟨1, _⟩ => exact rhs_dot_1 _ _)
  rw [el, er]

/-! ## The three projections read at an entry -/

/-- The key projection: entry (p, j) is the row of token p times column j of the matrix. -/
theorem pay3_apply (v0 : Vec Ideal S256x1024 .f32) (v5 : Vec Ideal S1024x1024 .bf16) (p : Fin 256) (j : Fin 1024) :
    k0_pay3 (F := Ideal) v0 v5 (ix2 p j) = Cert.AttnSpec.proj (fun k => v0 (ix2 p k)) (fun e k => v5 (ix2 k e)) j := by
  unfold k0_pay3 k0_pay2
  show matmul dot_S256x1024_S1024x1024_S256x1024_1_0_0_1_n_n none (truncf .bf16 v0 bitsLt_bf16_f32) (shapeCast S1024x1024 v5 shapeCasts_S1024x1024_S1024x1024)
    (constant (F := Ideal) S256x1024 .f32 0x00000000#32) (ix2 p j) = _
  rw [shapeCast_self, matmul_zero_apply]
  rfl

/-- The query projection scaled by the literal 0.125. -/
theorem pay5_apply (v0 : Vec Ideal S256x1024 .f32) (v2 : Vec Ideal S1024x1024 .bf16) (p : Fin 256) (j : Fin 1024) :
    k0_pay5 (F := Ideal) v0 v2 (ix2 p j)
      = Cert.AttnSpec.proj (fun k => v0 (ix2 p k)) (fun e k => v2 (ix2 k e)) j * Cert.AttnSpec.eighth := by
  unfold k0_pay5 k0_pay2
  show mulf (matmul dot_S256x1024_S1024x1024_S256x1024_1_0_0_1_n_n none (truncf .bf16 v0 bitsLt_bf16_f32) (shapeCast S1024x1024 v2 shapeCasts_S1024x1024_S1024x1024)
    (constant (F := Ideal) S256x1024 .f32 0x00000000#32)) (broadcast S256x1024 (Scalar.ofBits (F := Ideal) .f32 0x3E000000#32)) (ix2 p j) = _
  rw [mulf_apply, shapeCast_self, matmul_zero_apply]
  rfl

/-! ## One score column: a head's lanes tiled along the row, times the scaled query, summed by lanes -/

/-- Head g's 64 lanes of a row, tiled sixteen times: at lane d of head h the tile reads lane d of head g. -/
theorem tile_apply (off : Nat) (g : Fin 16) (hoff : off = g.val * 64) (k7 : FVec Ideal S256x1024 .f32)
    (hs : S256x1024.Slices ![0, off] S256x64)
    (hc : Shape.Concatenates [S256x64, S256x64, S256x64, S256x64, S256x64, S256x64, S256x64, S256x64, S256x64, S256x64, S256x64, S256x64, S256x64, S256x64, S256x64, S256x64] S256x1024 1) (p : Fin 256) (h : Fin 16) (d : Fin 64) :
    concatenate S256x1024 1 [⟨S256x64, extractStridedSlice S256x64 ![0, off] k7 hs⟩, ⟨S256x64, extractStridedSlice S256x64 ![0, off] k7 hs⟩, ⟨S256x64, extractStridedSlice S256x64 ![0, off] k7 hs⟩, ⟨S256x64, extractStridedSlice S256x64 ![0, off] k7 hs⟩, ⟨S256x64, extractStridedSlice S256x64 ![0, off] k7 hs⟩, ⟨S256x64, extractStridedSlice S256x64 ![0, off] k7 hs⟩, ⟨S256x64, extractStridedSlice S256x64 ![0, off] k7 hs⟩, ⟨S256x64, extractStridedSlice S256x64 ![0, off] k7 hs⟩, ⟨S256x64, extractStridedSlice S256x64 ![0, off] k7 hs⟩, ⟨S256x64, extractStridedSlice S256x64 ![0, off] k7 hs⟩, ⟨S256x64, extractStridedSlice S256x64 ![0, off] k7 hs⟩, ⟨S256x64, extractStridedSlice S256x64 ![0, off] k7 hs⟩, ⟨S256x64, extractStridedSlice S256x64 ![0, off] k7 hs⟩, ⟨S256x64, extractStridedSlice S256x64 ![0, off] k7 hs⟩, ⟨S256x64, extractStridedSlice S256x64 ![0, off] k7 hs⟩, ⟨S256x64, extractStridedSlice S256x64 ![0, off] k7 hs⟩] hc (ix2 p (Cert.AttnSpec.hd h d))
      = k7 (ix2 p (Cert.AttnSpec.hd g d)) := by
  refine (concatenate_replicate_apply (t := S256x1024) (s₁ := S256x64) 1 16 (extractStridedSlice S256x64 ![0, off] k7 hs) hc rfl
    (ix2 p (Cert.AttnSpec.hd h d)) (ix2 p d) ?_ ?_).trans ?_
  · show d.val = (h.val * 64 + d.val) % 64
    omega
  · intro b hb
    match b with
    | ⟨0, _⟩ => rfl
    | ⟨1, _⟩ => exact absurd rfl hb
  · exact slice2_axis1_apply off k7 hs p d (Cert.AttnSpec.hd g d) (by show g.val * 64 + d.val = off + d.val; omega)

/-- The product with the scaled query, regrouped as 16 heads of 64 lanes, at (p, h, d). -/
theorem cell_apply (off : Nat) (g : Fin 16) (hoff : off = g.val * 64) (q12 k7 : FVec Ideal S256x1024 .f32)
    (hs : S256x1024.Slices ![0, off] S256x64)
    (hc : Shape.Concatenates [S256x64, S256x64, S256x64, S256x64, S256x64, S256x64, S256x64, S256x64, S256x64, S256x64, S256x64, S256x64, S256x64, S256x64, S256x64, S256x64] S256x1024 1) (hsc : S256x1024.ShapeCasts S256x16x64)
    (p : Fin 256) (h : Fin 16) (d : Fin 64) :
    shapeCast S256x16x64 (mulf q12 (concatenate S256x1024 1 [⟨S256x64, extractStridedSlice S256x64 ![0, off] k7 hs⟩, ⟨S256x64, extractStridedSlice S256x64 ![0, off] k7 hs⟩, ⟨S256x64, extractStridedSlice S256x64 ![0, off] k7 hs⟩, ⟨S256x64, extractStridedSlice S256x64 ![0, off] k7 hs⟩, ⟨S256x64, extractStridedSlice S256x64 ![0, off] k7 hs⟩, ⟨S256x64, extractStridedSlice S256x64 ![0, off] k7 hs⟩, ⟨S256x64, extractStridedSlice S256x64 ![0, off] k7 hs⟩, ⟨S256x64, extractStridedSlice S256x64 ![0, off] k7 hs⟩, ⟨S256x64, extractStridedSlice S256x64 ![0, off] k7 hs⟩, ⟨S256x64, extractStridedSlice S256x64 ![0, off] k7 hs⟩, ⟨S256x64, extractStridedSlice S256x64 ![0, off] k7 hs⟩, ⟨S256x64, extractStridedSlice S256x64 ![0, off] k7 hs⟩, ⟨S256x64, extractStridedSlice S256x64 ![0, off] k7 hs⟩, ⟨S256x64, extractStridedSlice S256x64 ![0, off] k7 hs⟩, ⟨S256x64, extractStridedSlice S256x64 ![0, off] k7 hs⟩, ⟨S256x64, extractStridedSlice S256x64 ![0, off] k7 hs⟩] hc)) hsc (ix3 p h d)
      = q12 (ix2 p (Cert.AttnSpec.hd h d)) * k7 (ix2 p (Cert.AttnSpec.hd g d)) := by
  refine (shapeCast_apply _ hsc (ix3 p h d) (ix2 p (Cert.AttnSpec.hd h d)) ?_).trans ?_
  · rw [Shape.rowMajor_val_two, Shape.rowMajor_val_three]
    show p.val * 1024 + (h.val * 64 + d.val) = (p.val * 16 + h.val) * 64 + d.val
    omega
  · rw [mulf_apply, tile_apply off g hoff k7 hs hc p h d]

/-- Its lane sum at (p, h). -/
theorem col_apply (off : Nat) (g : Fin 16) (hoff : off = g.val * 64) (q12 k7 : FVec Ideal S256x1024 .f32)
    (hs : S256x1024.Slices ![0, off] S256x64)
    (hc : Shape.Concatenates [S256x64, S256x64, S256x64, S256x64, S256x64, S256x64, S256x64, S256x64, S256x64, S256x64, S256x64, S256x64, S256x64, S256x64, S256x64, S256x64] S256x1024 1) (hsc : S256x1024.ShapeCasts S256x16x64)
    (hr : S256x16x64.Reduces [2] S256x16) (hφ : FKind.Formats .f32) (hacc : (0x00000000#32 : BitVec 32) = FKind.add.neutral .f32 hφ)
    (p : Fin 256) (h : Fin 16) :
    multiReduction (F := Ideal) .add [2] S256x16
        (shapeCast S256x16x64 (mulf q12 (concatenate S256x1024 1 [⟨S256x64, extractStridedSlice S256x64 ![0, off] k7 hs⟩, ⟨S256x64, extractStridedSlice S256x64 ![0, off] k7 hs⟩, ⟨S256x64, extractStridedSlice S256x64 ![0, off] k7 hs⟩, ⟨S256x64, extractStridedSlice S256x64 ![0, off] k7 hs⟩, ⟨S256x64, extractStridedSlice S256x64 ![0, off] k7 hs⟩, ⟨S256x64, extractStridedSlice S256x64 ![0, off] k7 hs⟩, ⟨S256x64, extractStridedSlice S256x64 ![0, off] k7 hs⟩, ⟨S256x64, extractStridedSlice S256x64 ![0, off] k7 hs⟩, ⟨S256x64, extractStridedSlice S256x64 ![0, off] k7 hs⟩, ⟨S256x64, extractStridedSlice S256x64 ![0, off] k7 hs⟩, ⟨S256x64, extractStridedSlice S256x64 ![0, off] k7 hs⟩, ⟨S256x64, extractStridedSlice S256x64 ![0, off] k7 hs⟩, ⟨S256x64, extractStridedSlice S256x64 ![0, off] k7 hs⟩, ⟨S256x64, extractStridedSlice S256x64 ![0, off] k7 hs⟩, ⟨S256x64, extractStridedSlice S256x64 ![0, off] k7 hs⟩, ⟨S256x64, extractStridedSlice S256x64 ![0, off] k7 hs⟩] hc)) hsc)
        0x00000000#32 hr hφ hacc (ix2 p h)
      = ∑ d : Fin 64, q12 (ix2 p (Cert.AttnSpec.hd h d)) * k7 (ix2 p (Cert.AttnSpec.hd g d)) := by
  rw [Ideal.multiReduction_add_single]
  refine Finset.sum_congr rfl fun d _ => ?_
  have e : hr.lift (ix2 p h) d = ix3 p h d := funext fun c => Fin.ext (by
    match c with
    | ⟨0, _⟩ => rfl
    | ⟨1, _⟩ => rfl
    | ⟨2, _⟩ => rfl)
  rw [e]
  exact cell_apply off g hoff q12 k7 hs hc hsc p h d

/-- The lane sum of the scaled query against the key projection is the score of heads (h, g). -/
theorem score_sum (v0 : Vec Ideal S256x1024 .f32) (v2 v5 : Vec Ideal S1024x1024 .bf16) (p : Fin 256) (h g : Fin 16) :
    (∑ d : Fin 64, k0_pay5 (F := Ideal) v0 v2 (ix2 p (Cert.AttnSpec.hd h d)) * k0_pay3 (F := Ideal) v0 v5 (ix2 p (Cert.AttnSpec.hd g d)))
      = Cert.AttnSpec.scoreK (Cert.AttnSpec.proj (fun k => v0 (ix2 p k)) (fun e k => v2 (ix2 k e)))
          (Cert.AttnSpec.proj (fun k => v0 (ix2 p k)) (fun e k => v5 (ix2 k e))) h g := by
  show _ = ∑ d : Fin 64, (Cert.AttnSpec.proj (fun k => v0 (ix2 p k)) (fun e k => v2 (ix2 k e)) (Cert.AttnSpec.hd h d) * Cert.AttnSpec.eighth)
    * Cert.AttnSpec.proj (fun k => v0 (ix2 p k)) (fun e k => v5 (ix2 k e)) (Cert.AttnSpec.hd g d)
  refine Finset.sum_congr rfl fun d _ => ?_
  rw [pay5_apply, pay3_apply]

theorem value_proj (v0 : Vec Ideal S256x1024 .f32) (v8 : Vec Ideal S1024x1024 .bf16) (p : Fin 256) (j : Fin 1024) :
    k0_pay4 (F := Ideal) v0 v8 (ix2 p j) = Cert.AttnSpec.proj (fun k => v0 (ix2 p k)) (fun e k => v8 (ix2 k e)) j := by
  unfold k0_pay4 k0_pay2
  show matmul dot_S256x1024_S1024x1024_S256x1024_1_0_0_1_n_n none (truncf .bf16 v0 bitsLt_bf16_f32) (shapeCast S1024x1024 v8 shapeCasts_S1024x1024_S1024x1024)
    (constant (F := Ideal) S256x1024 .f32 0x00000000#32) (ix2 p j) = _
  rw [shapeCast_self, matmul_zero_apply]
  rfl

theorem score_col_0 (v0 : Vec Ideal S256x1024 .f32) (v2 v5 : Vec Ideal S1024x1024 .bf16) (p : Fin 256) (h : Fin 16) :
    k0_pay6 (F := Ideal) v0 v2 v5 (ix2 p h)
      = Cert.AttnSpec.scoreK (Cert.AttnSpec.proj (fun k => v0 (ix2 p k)) (fun e k => v2 (ix2 k e)))
          (Cert.AttnSpec.proj (fun k => v0 (ix2 p k)) (fun e k => v5 (ix2 k e))) h 0 := by
  unfold k0_pay6
  exact (col_apply 0 0 (by decide) (k0_pay5 v0 v2) (k0_pay3 v0 v5) _ _ _ _ _ _ p h).trans (score_sum v0 v2 v5 p h 0)

theorem score_col_1 (v0 : Vec Ideal S256x1024 .f32) (v2 v5 : Vec Ideal S1024x1024 .bf16) (p : Fin 256) (h : Fin 16) :
    k0_pay7 (F := Ideal) v0 v2 v5 (ix2 p h)
      = Cert.AttnSpec.scoreK (Cert.AttnSpec.proj (fun k => v0 (ix2 p k)) (fun e k => v2 (ix2 k e)))
          (Cert.AttnSpec.proj (fun k => v0 (ix2 p k)) (fun e k => v5 (ix2 k e))) h 1 := by
  unfold k0_pay7
  exact (col_apply 64 1 (by decide) (k0_pay5 v0 v2) (k0_pay3 v0 v5) _ _ _ _ _ _ p h).trans (score_sum v0 v2 v5 p h 1)

theorem score_col_2 (v0 : Vec Ideal S256x1024 .f32) (v2 v5 : Vec Ideal S1024x1024 .bf16) (p : Fin 256) (h : Fin 16) :
    k0_pay8 (F := Ideal) v0 v2 v5 (ix2 p h)
      = Cert.AttnSpec.scoreK (Cert.AttnSpec.proj (fun k => v0 (ix2 p k)) (fun e k => v2 (ix2 k e)))
          (Cert.AttnSpec.proj (fun k => v0 (ix2 p k)) (fun e k => v5 (ix2 k e))) h 2 := by
  unfold k0_pay8
  exact (col_apply 128 2 (by decide) (k0_pay5 v0 v2) (k0_pay3 v0 v5) _ _ _ _ _ _ p h).trans (score_sum v0 v2 v5 p h 2)

theorem score_col_3 (v0 : Vec Ideal S256x1024 .f32) (v2 v5 : Vec Ideal S1024x1024 .bf16) (p : Fin 256) (h : Fin 16) :
    k0_pay9 (F := Ideal) v0 v2 v5 (ix2 p h)
      = Cert.AttnSpec.scoreK (Cert.AttnSpec.proj (fun k => v0 (ix2 p k)) (fun e k => v2 (ix2 k e)))
          (Cert.AttnSpec.proj (fun k => v0 (ix2 p k)) (fun e k => v5 (ix2 k e))) h 3 := by
  unfold k0_pay9
  exact (col_apply 192 3 (by decide) (k0_pay5 v0 v2) (k0_pay3 v0 v5) _ _ _ _ _ _ p h).trans (score_sum v0 v2 v5 p h 3)

theorem score_col_4 (v0 : Vec Ideal S256x1024 .f32) (v2 v5 : Vec Ideal S1024x1024 .bf16) (p : Fin 256) (h : Fin 16) :
    k0_pay10 (F := Ideal) v0 v2 v5 (ix2 p h)
      = Cert.AttnSpec.scoreK (Cert.AttnSpec.proj (fun k => v0 (ix2 p k)) (fun e k => v2 (ix2 k e)))
          (Cert.AttnSpec.proj (fun k => v0 (ix2 p k)) (fun e k => v5 (ix2 k e))) h 4 := by
  unfold k0_pay10
  exact (col_apply 256 4 (by decide) (k0_pay5 v0 v2) (k0_pay3 v0 v5) _ _ _ _ _ _ p h).trans (score_sum v0 v2 v5 p h 4)

theorem score_col_5 (v0 : Vec Ideal S256x1024 .f32) (v2 v5 : Vec Ideal S1024x1024 .bf16) (p : Fin 256) (h : Fin 16) :
    k0_pay12 (F := Ideal) (k0_pay11 v0 v2 v5) (ix2 p h)
      = Cert.AttnSpec.scoreK (Cert.AttnSpec.proj (fun k => v0 (ix2 p k)) (fun e k => v2 (ix2 k e)))
          (Cert.AttnSpec.proj (fun k => v0 (ix2 p k)) (fun e k => v5 (ix2 k e))) h 5 := by
  unfold k0_pay12 k0_pay11
  exact (col_apply 320 5 (by decide) (k0_pay5 v0 v2) (k0_pay3 v0 v5) _ _ _ _ _ _ p h).trans (score_sum v0 v2 v5 p h 5)

theorem score_col_6 (v0 : Vec Ideal S256x1024 .f32) (v2 v5 : Vec Ideal S1024x1024 .bf16) (p : Fin 256) (h : Fin 16) :
    k0_pay13 (F := Ideal) (k0_pay3 v0 v5) (k0_pay5 v0 v2) (ix2 p h)
      = Cert.AttnSpec.scoreK (Cert.AttnSpec.proj (fun k => v0 (ix2 p k)) (fun e k => v2 (ix2 k e)))
          (Cert.AttnSpec.proj (fun k => v0 (ix2 p k)) (fun e k => v5 (ix2 k e))) h 6 := by
  unfold k0_pay13
  exact (col_apply 384 6 (by decide) (k0_pay5 v0 v2) (k0_pay3 v0 v5) _ _ _ _ _ _ p h).trans (score_sum v0 v2 v5 p h 6)

theorem score_col_7 (v0 : Vec Ideal S256x1024 .f32) (v2 v5 : Vec Ideal S1024x1024 .bf16) (p : Fin 256) (h : Fin 16) :
    k0_pay14 (F := Ideal) (k0_pay3 v0 v5) (k0_pay5 v0 v2) (ix2 p h)
      = Cert.AttnSpec.scoreK (Cert.AttnSpec.proj (fun k => v0 (ix2 p k)) (fun e k => v2 (ix2 k e)))
          (Cert.AttnSpec.proj (fun k => v0 (ix2 p k)) (fun e k => v5 (ix2 k e))) h 7 := by
  unfold k0_pay14
  exact (col_apply 448 7 (by decide) (k0_pay5 v0 v2) (k0_pay3 v0 v5) _ _ _ _ _ _ p h).trans (score_sum v0 v2 v5 p h 7)

theorem score_col_8 (v0 : Vec Ideal S256x1024 .f32) (v2 v5 : Vec Ideal S1024x1024 .bf16) (p : Fin 256) (h : Fin 16) :
    k0_pay15 (F := Ideal) (k0_pay3 v0 v5) (k0_pay5 v0 v2) (ix2 p h)
      = Cert.AttnSpec.scoreK (Cert.AttnSpec.proj (fun k => v0 (ix2 p k)) (fun e k => v2 (ix2 k e)))
          (Cert.AttnSpec.proj (fun k => v0 (ix2 p k)) (fun e k => v5 (ix2 k e))) h 8 := by
  unfold k0_pay15
  exact (col_apply 512 8 (by decide) (k0_pay5 v0 v2) (k0_pay3 v0 v5) _ _ _ _ _ _ p h).trans (score_sum v0 v2 v5 p h 8)

theorem score_col_9 (v0 : Vec Ideal S256x1024 .f32) (v2 v5 : Vec Ideal S1024x1024 .bf16) (p : Fin 256) (h : Fin 16) :
    k0_pay16 (F := Ideal) (k0_pay3 v0 v5) (k0_pay5 v0 v2) (ix2 p h)
      = Cert.AttnSpec.scoreK (Cert.AttnSpec.proj (fun k => v0 (ix2 p k)) (fun e k => v2 (ix2 k e)))
          (Cert.AttnSpec.proj (fun k => v0 (ix2 p k)) (fun e k => v5 (ix2 k e))) h 9 := by
  unfold k0_pay16
  exact (col_apply 576 9 (by decide) (k0_pay5 v0 v2) (k0_pay3 v0 v5) _ _ _ _ _ _ p h).trans (score_sum v0 v2 v5 p h 9)

theorem score_col_10 (v0 : Vec Ideal S256x1024 .f32) (v2 v5 : Vec Ideal S1024x1024 .bf16) (p : Fin 256) (h : Fin 16) :
    k0_pay17 (F := Ideal) (k0_pay3 v0 v5) (k0_pay5 v0 v2) (ix2 p h)
      = Cert.AttnSpec.scoreK (Cert.AttnSpec.proj (fun k => v0 (ix2 p k)) (fun e k => v2 (ix2 k e)))
          (Cert.AttnSpec.proj (fun k => v0 (ix2 p k)) (fun e k => v5 (ix2 k e))) h 10 := by
  unfold k0_pay17
  exact (col_apply 640 10 (by decide) (k0_pay5 v0 v2) (k0_pay3 v0 v5) _ _ _ _ _ _ p h).trans (score_sum v0 v2 v5 p h 10)

theorem score_col_11 (v0 : Vec Ideal S256x1024 .f32) (v2 v5 : Vec Ideal S1024x1024 .bf16) (p : Fin 256) (h : Fin 16) :
    k0_pay18 (F := Ideal) (k0_pay3 v0 v5) (k0_pay5 v0 v2) (ix2 p h)
      = Cert.AttnSpec.scoreK (Cert.AttnSpec.proj (fun k => v0 (ix2 p k)) (fun e k => v2 (ix2 k e)))
          (Cert.AttnSpec.proj (fun k => v0 (ix2 p k)) (fun e k => v5 (ix2 k e))) h 11 := by
  unfold k0_pay18
  exact (col_apply 704 11 (by decide) (k0_pay5 v0 v2) (k0_pay3 v0 v5) _ _ _ _ _ _ p h).trans (score_sum v0 v2 v5 p h 11)

theorem score_col_12 (v0 : Vec Ideal S256x1024 .f32) (v2 v5 : Vec Ideal S1024x1024 .bf16) (p : Fin 256) (h : Fin 16) :
    k0_pay19 (F := Ideal) (k0_pay3 v0 v5) (k0_pay5 v0 v2) (ix2 p h)
      = Cert.AttnSpec.scoreK (Cert.AttnSpec.proj (fun k => v0 (ix2 p k)) (fun e k => v2 (ix2 k e)))
          (Cert.AttnSpec.proj (fun k => v0 (ix2 p k)) (fun e k => v5 (ix2 k e))) h 12 := by
  unfold k0_pay19
  exact (col_apply 768 12 (by decide) (k0_pay5 v0 v2) (k0_pay3 v0 v5) _ _ _ _ _ _ p h).trans (score_sum v0 v2 v5 p h 12)

theorem score_col_13 (v0 : Vec Ideal S256x1024 .f32) (v2 v5 : Vec Ideal S1024x1024 .bf16) (p : Fin 256) (h : Fin 16) :
    k0_pay20 (F := Ideal) (k0_pay3 v0 v5) (k0_pay5 v0 v2) (ix2 p h)
      = Cert.AttnSpec.scoreK (Cert.AttnSpec.proj (fun k => v0 (ix2 p k)) (fun e k => v2 (ix2 k e)))
          (Cert.AttnSpec.proj (fun k => v0 (ix2 p k)) (fun e k => v5 (ix2 k e))) h 13 := by
  unfold k0_pay20
  exact (col_apply 832 13 (by decide) (k0_pay5 v0 v2) (k0_pay3 v0 v5) _ _ _ _ _ _ p h).trans (score_sum v0 v2 v5 p h 13)

theorem score_col_14 (v0 : Vec Ideal S256x1024 .f32) (v2 v5 : Vec Ideal S1024x1024 .bf16) (p : Fin 256) (h : Fin 16) :
    k0_pay21 (F := Ideal) (k0_pay3 v0 v5) (k0_pay5 v0 v2) (ix2 p h)
      = Cert.AttnSpec.scoreK (Cert.AttnSpec.proj (fun k => v0 (ix2 p k)) (fun e k => v2 (ix2 k e)))
          (Cert.AttnSpec.proj (fun k => v0 (ix2 p k)) (fun e k => v5 (ix2 k e))) h 14 := by
  unfold k0_pay21
  exact (col_apply 896 14 (by decide) (k0_pay5 v0 v2) (k0_pay3 v0 v5) _ _ _ _ _ _ p h).trans (score_sum v0 v2 v5 p h 14)

theorem score_col_15 (v0 : Vec Ideal S256x1024 .f32) (v2 v5 : Vec Ideal S1024x1024 .bf16) (p : Fin 256) (h : Fin 16) :
    (∑ d : Fin 64, k0_pay22 (F := Ideal) (k0_pay3 v0 v5) (k0_pay5 v0 v2) (ix3 p h d))
      = Cert.AttnSpec.scoreK (Cert.AttnSpec.proj (fun k => v0 (ix2 p k)) (fun e k => v2 (ix2 k e)))
          (Cert.AttnSpec.proj (fun k => v0 (ix2 p k)) (fun e k => v5 (ix2 k e))) h 15 := by
  refine (Finset.sum_congr rfl fun d _ => ?_).trans (score_sum v0 v2 v5 p h 15)
  unfold k0_pay22
  exact cell_apply 960 15 (by decide) (k0_pay5 v0 v2) (k0_pay3 v0 v5) _ _ _ p h d

end Cert.KernelIdeal.Hand

end
-- ==== Proof.KernelTailValue.lean ====
/-
  The tail of a block read at one entry. Given, at token `p` of the block, the sixteen score columns as a
  table `S` of head pairs (the sixteenth as the lane sum of `v91`) and the value projection's row `vv`, the
  stored entry `(p, e)` is the mixed row times the transposed output matrix: the softmax of each row of
  `S` (its maximum folded from `-∞`, the exponentials, their sum, the quotient), then for each entry
  `j = h·64 + d` the sum over heads `g` of weight `(h, g)` times `vv (g·64 + d)` — the body adds the sixteen
  products one after the other onto zero, which is that sum —, then the sum over `j` against the output matrix.
-/
import proofs.«402946_j65481071398785_3_alg».proof.Proof.KernelBlock
import proofs.«402946_j65481071398785_3_alg».proof.Proof.AttnSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Idealize.ShloMosaic Idealize.SL.Sem Cert.KernelIdeal Cert.KernelIdeal.Gen Idealize.ShloMosaic.ValueIdx

open Cert.AttnSpec (hd headOf laneOf)

/-! The pieces: layout operations of these shapes read at an index, the softmax of the sixteen columns, the
    sixteen products added onto zero, and the last matrix product. -/

namespace Tail

section Layout
variable {α : Type}

/-- The index over `(p, h)` with coordinate `k` inserted on the last axis of a `[256,16,n]` array. -/
theorem lift_ix2_16 (hr : S256x16x16.Reduces [2] S256x16) (p : Fin 256) (h : Fin 16) (k : Fin 16) :
    hr.lift (ix2 p h) k = ix3 p h k := by
  funext c
  match c with
  | ⟨0, _⟩ => rfl
  | ⟨1, _⟩ => rfl
  | ⟨2, _⟩ => rfl

theorem lift_ix2_64 (hr : S256x16x64.Reduces [2] S256x16) (p : Fin 256) (h : Fin 16) (k : Fin 64) :
    hr.lift (ix2 p h) k = ix3 p h k := by
  funext c
  match c with
  | ⟨0, _⟩ => rfl
  | ⟨1, _⟩ => rfl
  | ⟨2, _⟩ => rfl

/-- A `[256,16]` array viewed `[256,16,1]` reads, at `(p, h, u)`, the array at `(p, h)`. -/
theorem cast_col_apply (x : S256x16.Idx → α) (hs : S256x16.ShapeCasts S256x16x1) (p : Fin 256) (h : Fin 16) (u : Fin 1) :
    shapeCast S256x16x1 x hs (ix3 p h u) = x (ix2 p h) :=
  shapeCast_apply x hs _ _ (by
    have hu : u.val = 0 := by omega
    rw [Shape.rowMajor_val_three, Shape.rowMajor_val_two]
    show p.val * 16 + h.val = (p.val * 16 + h.val) * 1 + u.val
    omega)

/-- A `[256,16,1]` array viewed `[256,16]` reads, at `(p, h)`, the array at `(p, h, 0)`. -/
theorem uncast_col_apply (x : S256x16x1.Idx → α) (hs : S256x16x1.ShapeCasts S256x16) (p : Fin 256) (h : Fin 16) :
    shapeCast S256x16 x hs (ix2 p h) = x (ix3 p h (0 : Fin 1)) :=
  shapeCast_apply x hs _ _ (by
    rw [Shape.rowMajor_val_three, Shape.rowMajor_val_two]
    show (p.val * 16 + h.val) * 1 + 0 = p.val * 16 + h.val
    omega)

/-- A `[256,16,1]` array broadcast along its last axis to 16 reads, at `(p, h, g)`, the array at `(p, h, 0)`. -/
theorem bcast16_apply (x : S256x16x1.Idx → α) (hb : S256x16x1.Broadcasts S256x16x16) (p : Fin 256) (h : Fin 16) (g : Fin 16) :
    broadcastTo S256x16x16 x hb (ix3 p h g) = x (ix3 p h (0 : Fin 1)) :=
  broadcastTo_apply x hb _ _ (fun a => by
    match a with
    | ⟨0, _⟩ => rfl
    | ⟨1, _⟩ => rfl
    | ⟨2, _⟩ => rfl)

theorem bcast64_apply (x : S256x16x1.Idx → α) (hb : S256x16x1.Broadcasts S256x16x64) (p : Fin 256) (h : Fin 16) (d : Fin 64) :
    broadcastTo S256x16x64 x hb (ix3 p h d) = x (ix3 p h (0 : Fin 1)) :=
  broadcastTo_apply x hb _ _ (fun a => by
    match a with
    | ⟨0, _⟩ => rfl
    | ⟨1, _⟩ => rfl
    | ⟨2, _⟩ => rfl)

/-- A `[256,16,64]` array viewed `[256,1024]` reads, at `(p, j)`, the array at `(p, j / 64, j % 64)`. -/
theorem flat_apply (x : S256x16x64.Idx → α) (hs : S256x16x64.ShapeCasts S256x1024) (p : Fin 256) (j : Fin 1024) :
    shapeCast S256x1024 x hs (ix2 p j) = x (ix3 p (headOf j) (laneOf j)) :=
  shapeCast_apply x hs _ _ (by
    rw [Shape.rowMajor_val_three, Shape.rowMajor_val_two]
    show (p.val * 16 + j.val / 64) * 64 + j.val % 64 = p.val * 1024 + j.val
    omega)

/-- The weight column `o`, spread over the lanes and flattened: at `(p, j)` it is the table at `(p, head of j, o)`. -/
theorem wcol_apply (o : Nat) (ho : o < 16) (w : S256x16x16.Idx → α)
    (h1 : S256x16x16.Slices ![0, 0, o] S256x16x1) (h2 : S256x16x1.ShapeCasts S256x16) (h3 : S256x16.ShapeCasts S256x16x1)
    (h4 : S256x16x1.ShapeCasts S256x16x1) (h5 : S256x16x1.Broadcasts S256x16x64) (h6 : S256x16x64.ShapeCasts S256x1024)
    (p : Fin 256) (j : Fin 1024) :
    shapeCast S256x1024 (broadcastTo S256x16x64 (shapeCast S256x16x1 (shapeCast S256x16x1 (shapeCast S256x16
      (extractStridedSlice S256x16x1 ![0, 0, o] w h1) h2) h3) h4) h5) h6 (ix2 p j) = w (ix3 p (headOf j) ⟨o, ho⟩) := by
  rw [flat_apply, bcast64_apply, shapeCast_self, cast_col_apply, uncast_col_apply]
  exact extractStridedSlice_apply _ _ _ _ _ (fun a => by
    match a with
    | ⟨0, _⟩ => exact (Nat.zero_add _).symm
    | ⟨1, _⟩ => exact (Nat.zero_add _).symm
    | ⟨2, _⟩ => rfl)

/-- Sixteen copies of the lanes of head `g` side by side: at `(p, j)` it is the row at `(p, g·64 + lane of j)`. -/
theorem vcol_apply (o : Nat) (g : Fin 16) (hg : o = g.val * 64) (x : S256x1024.Idx → α)
    (h1 : S256x1024.Slices ![0, o] S256x64)
    (h2 : Shape.Concatenates [S256x64, S256x64, S256x64, S256x64, S256x64, S256x64, S256x64, S256x64, S256x64, S256x64, S256x64, S256x64, S256x64, S256x64, S256x64, S256x64] S256x1024 1)
    (p : Fin 256) (j : Fin 1024) :
    concatenate S256x1024 1 [⟨S256x64, extractStridedSlice S256x64 ![0, o] x h1⟩, ⟨S256x64, extractStridedSlice S256x64 ![0, o] x h1⟩, ⟨S256x64, extractStridedSlice S256x64 ![0, o] x h1⟩, ⟨S256x64, extractStridedSlice S256x64 ![0, o] x h1⟩, ⟨S256x64, extractStridedSlice S256x64 ![0, o] x h1⟩, ⟨S256x64, extractStridedSlice S256x64 ![0, o] x h1⟩, ⟨S256x64, extractStridedSlice S256x64 ![0, o] x h1⟩, ⟨S256x64, extractStridedSlice S256x64 ![0, o] x h1⟩, ⟨S256x64, extractStridedSlice S256x64 ![0, o] x h1⟩, ⟨S256x64, extractStridedSlice S256x64 ![0, o] x h1⟩, ⟨S256x64, extractStridedSlice S256x64 ![0, o] x h1⟩, ⟨S256x64, extractStridedSlice S256x64 ![0, o] x h1⟩, ⟨S256x64, extractStridedSlice S256x64 ![0, o] x h1⟩, ⟨S256x64, extractStridedSlice S256x64 ![0, o] x h1⟩, ⟨S256x64, extractStridedSlice S256x64 ![0, o] x h1⟩, ⟨S256x64, extractStridedSlice S256x64 ![0, o] x h1⟩] h2 (ix2 p j)
      = x (ix2 p (hd g (laneOf j))) := by
  refine (concatenate_replicate_apply (t := S256x1024) (s₁ := S256x64) (1 : Fin 2) 16 (extractStridedSlice S256x64 ![0, o] x h1) h2 rfl (ix2 p j) (ix2 p (laneOf j)) rfl (fun b hb => ?_)).trans ?_
  · match b with
    | ⟨0, _⟩ => rfl
    | ⟨1, _⟩ => exact absurd rfl hb
  · exact slice2_axis1_apply o x h1 p (laneOf j) (hd g (laneOf j)) (by rw [hg]; rfl)

end Layout

section Soft
open Cert.AttnSpec (Heads rowMax expo soft negInf)

/-- Sixteen `[256,16]` columns, each viewed `[256,16,1]`, side by side along the last axis: entry `(p, h, g)` is column `g` at `(p, h)`. -/
theorem cols_apply {α : Type} (c0 c1 c2 c3 c4 c5 c6 c7 c8 c9 c10 c11 c12 c13 c14 c15 : S256x16.Idx → α) (hs : S256x16.ShapeCasts S256x16x1)
    (hc : Shape.Concatenates [S256x16x1, S256x16x1, S256x16x1, S256x16x1, S256x16x1, S256x16x1, S256x16x1, S256x16x1, S256x16x1, S256x16x1, S256x16x1, S256x16x1, S256x16x1, S256x16x1, S256x16x1, S256x16x1] S256x16x16 2)
    (p : Fin 256) (h : Fin 16) (g : Fin 16) :
    concatenate S256x16x16 2 [⟨S256x16x1, shapeCast S256x16x1 c0 hs⟩, ⟨S256x16x1, shapeCast S256x16x1 c1 hs⟩, ⟨S256x16x1, shapeCast S256x16x1 c2 hs⟩, ⟨S256x16x1, shapeCast S256x16x1 c3 hs⟩, ⟨S256x16x1, shapeCast S256x16x1 c4 hs⟩, ⟨S256x16x1, shapeCast S256x16x1 c5 hs⟩, ⟨S256x16x1, shapeCast S256x16x1 c6 hs⟩, ⟨S256x16x1, shapeCast S256x16x1 c7 hs⟩, ⟨S256x16x1, shapeCast S256x16x1 c8 hs⟩, ⟨S256x16x1, shapeCast S256x16x1 c9 hs⟩, ⟨S256x16x1, shapeCast S256x16x1 c10 hs⟩, ⟨S256x16x1, shapeCast S256x16x1 c11 hs⟩, ⟨S256x16x1, shapeCast S256x16x1 c12 hs⟩, ⟨S256x16x1, shapeCast S256x16x1 c13 hs⟩, ⟨S256x16x1, shapeCast S256x16x1 c14 hs⟩, ⟨S256x16x1, shapeCast S256x16x1 c15 hs⟩] hc (ix3 p h g)
      = (![c0, c1, c2, c3, c4, c5, c6, c7, c8, c9, c10, c11, c12, c13, c14, c15] g) (ix2 p h) := by
  refine (concatenate_ofFn_unit_apply (t := S256x16x16) (s₁ := S256x16x1) (2 : Fin 3)
    (fun n : Fin 16 => shapeCast S256x16x1 (![c0, c1, c2, c3, c4, c5, c6, c7, c8, c9, c10, c11, c12, c13, c14, c15] n) hs) hc rfl rfl (ix3 p h g) g rfl (ix3 p h (0 : Fin 1)) (fun b hb => ?_)).trans ?_
  · match b with
    | ⟨0, _⟩ => rfl
    | ⟨1, _⟩ => rfl
    | ⟨2, _⟩ => exact absurd rfl hb
  · exact cast_col_apply _ hs p h 0

/-- The lane sum of a `[256,16,64]` array at `(p, h)`. -/
theorem lanesum_apply (v : FVec Ideal S256x16x64 .f32) (hr : S256x16x64.Reduces [2] S256x16) (hφ : FKind.Formats .f32)
    (hacc : (0x00000000#32 : BitVec 32) = FKind.add.neutral .f32 hφ) (p : Fin 256) (h : Fin 16) :
    multiReduction .add [2] S256x16 v 0x00000000#32 hr hφ hacc (ix2 p h) = ∑ d : Fin 64, v (ix3 p h d) := by
  rw [Ideal.multiReduction_add_single]
  exact Finset.sum_congr rfl fun k _ => congrArg v (lift_ix2_64 hr p h k)

/-- The sum over the last axis of a `[256,16,16]` array at `(p, h)`, given its entries on row `p`. -/
theorem headsum_apply (E : FVec Ideal S256x16x16 .f32) (hr : S256x16x16.Reduces [2] S256x16) (hφ : FKind.Formats .f32)
    (hacc : (0x00000000#32 : BitVec 32) = FKind.add.neutral .f32 hφ) (p : Fin 256) (T : Heads)
    (hE : ∀ h g, E (ix3 p h g) = T h g) (h : Fin 16) :
    multiReduction .add [2] S256x16 E 0x00000000#32 hr hφ hacc (ix2 p h) = ∑ g : Fin 16, T h g := by
  rw [Ideal.multiReduction_add_single]
  exact Finset.sum_congr rfl fun k _ => (congrArg E (lift_ix2_16 hr p h k)).trans (hE h k)

/-- The maximum over the last axis, folded from `-∞`, at `(p, h)`. -/
theorem headmax_apply (X : FVec Ideal S256x16x16 .f32) (hr : S256x16x16.Reduces [2] S256x16) (hφ : FKind.Formats .f32)
    (hacc : (0xFF800000#32 : BitVec 32) = FKind.maximumf.neutral .f32 hφ) (p : Fin 256) (S : Heads)
    (hX : ∀ h g, X (ix3 p h g) = S h g) (h : Fin 16) :
    multiReduction .maximumf [2] S256x16 X 0xFF800000#32 hr hφ hacc (ix2 p h) = rowMax S h := by
  rw [Ideal.multiReduction_maximumf_single]
  have hf : (X ∘ hr.lift (ix2 p h)) = S h := funext fun k => by
    exact (congrArg X (lift_ix2_16 hr p h k)).trans (hX h k)
  rw [hf]
  rfl

/-- The exponential of an entry less its row's maximum. -/
theorem expo_apply (X : FVec Ideal S256x16x16 .f32) (M : FVec Ideal S256x16 .f32) (hs : S256x16.ShapeCasts S256x16x1)
    (hb : S256x16x1.Broadcasts S256x16x16) (p : Fin 256) (S : Heads)
    (hX : ∀ h g, X (ix3 p h g) = S h g) (hM : ∀ h, M (ix2 p h) = rowMax S h) (h g : Fin 16) :
    exp (subf X (broadcastTo S256x16x16 (shapeCast S256x16x1 M hs) hb)) (ix3 p h g) = expo S h g := by
  show Ideal.exp (X (ix3 p h g) - broadcastTo S256x16x16 (shapeCast S256x16x1 M hs) hb (ix3 p h g)) = _
  rw [bcast16_apply, cast_col_apply, hM, hX]
  rfl

/-- The quotient of the exponentials by their row's sum. -/
theorem quot_apply (E : FVec Ideal S256x16x16 .f32) (Z : FVec Ideal S256x16 .f32) (hs : S256x16.ShapeCasts S256x16x1)
    (hb : S256x16x1.Broadcasts S256x16x16) (p : Fin 256) (S : Heads)
    (hE : ∀ h g, E (ix3 p h g) = expo S h g) (hZ : ∀ h, Z (ix2 p h) = ∑ g' : Fin 16, expo S h g') (h g : Fin 16) :
    divf E (broadcastTo S256x16x16 (shapeCast S256x16x1 Z hs) hb) (ix3 p h g) = soft S h g := by
  show Ideal.div (E (ix3 p h g)) (broadcastTo S256x16x16 (shapeCast S256x16x1 Z hs) hb (ix3 p h g)) = _
  rw [bcast16_apply, cast_col_apply, hZ, hE]
  rfl

/-- The softmax weights the body computes from the sixteen score columns, at `(p, h, g)`. -/
theorem pay23_apply (v17 v22 v27 v32 v37 v42 v47 v52 v57 v62 v67 v72 v77 v82 v87 : FVec Ideal S256x16 .f32)
    (v91 : FVec Ideal S256x16x64 .f32) (p : Fin 256) (S : Heads)
    (h0 : ∀ h : Fin 16, v17 (ix2 p h) = S h 0)
    (h1 : ∀ h : Fin 16, v22 (ix2 p h) = S h 1)
    (h2 : ∀ h : Fin 16, v27 (ix2 p h) = S h 2)
    (h3 : ∀ h : Fin 16, v32 (ix2 p h) = S h 3)
    (h4 : ∀ h : Fin 16, v37 (ix2 p h) = S h 4)
    (h5 : ∀ h : Fin 16, v42 (ix2 p h) = S h 5)
    (h6 : ∀ h : Fin 16, v47 (ix2 p h) = S h 6)
    (h7 : ∀ h : Fin 16, v52 (ix2 p h) = S h 7)
    (h8 : ∀ h : Fin 16, v57 (ix2 p h) = S h 8)
    (h9 : ∀ h : Fin 16, v62 (ix2 p h) = S h 9)
    (h10 : ∀ h : Fin 16, v67 (ix2 p h) = S h 10)
    (h11 : ∀ h : Fin 16, v72 (ix2 p h) = S h 11)
    (h12 : ∀ h : Fin 16, v77 (ix2 p h) = S h 12)
    (h13 : ∀ h : Fin 16, v82 (ix2 p h) = S h 13)
    (h14 : ∀ h : Fin 16, v87 (ix2 p h) = S h 14)
    (h15 : ∀ h : Fin 16, (∑ d : Fin 64, v91 (ix3 p h d)) = S h 15) (h g : Fin 16) :
    k0_pay23 (F := Ideal) v17 v22 v27 v32 v37 v42 v47 v52 v57 v62 v67 v72 v77 v82 v87 v91 (ix3 p h g) = soft S h g := by
  have hX : ∀ h g, concatenate S256x16x16 2 [⟨S256x16x1, shapeCast S256x16x1 v17 shapeCasts_S256x16_S256x16x1⟩, ⟨S256x16x1, shapeCast S256x16x1 v22 shapeCasts_S256x16_S256x16x1⟩, ⟨S256x16x1, shapeCast S256x16x1 v27 shapeCasts_S256x16_S256x16x1⟩, ⟨S256x16x1, shapeCast S256x16x1 v32 shapeCasts_S256x16_S256x16x1⟩, ⟨S256x16x1, shapeCast S256x16x1 v37 shapeCasts_S256x16_S256x16x1⟩, ⟨S256x16x1, shapeCast S256x16x1 v42 shapeCasts_S256x16_S256x16x1⟩, ⟨S256x16x1, shapeCast S256x16x1 v47 shapeCasts_S256x16_S256x16x1⟩, ⟨S256x16x1, shapeCast S256x16x1 v52 shapeCasts_S256x16_S256x16x1⟩, ⟨S256x16x1, shapeCast S256x16x1 v57 shapeCasts_S256x16_S256x16x1⟩, ⟨S256x16x1, shapeCast S256x16x1 v62 shapeCasts_S256x16_S256x16x1⟩, ⟨S256x16x1, shapeCast S256x16x1 v67 shapeCasts_S256x16_S256x16x1⟩, ⟨S256x16x1, shapeCast S256x16x1 v72 shapeCasts_S256x16_S256x16x1⟩, ⟨S256x16x1, shapeCast S256x16x1 v77 shapeCasts_S256x16_S256x16x1⟩, ⟨S256x16x1, shapeCast S256x16x1 v82 shapeCasts_S256x16_S256x16x1⟩, ⟨S256x16x1, shapeCast S256x16x1 v87 shapeCasts_S256x16_S256x16x1⟩, ⟨S256x16x1, shapeCast S256x16x1 (multiReduction (F := Ideal) .add [2] S256x16 v91 0x00000000#32 reduces_S256x16x64_S256x16 (.inl rfl) rfl) shapeCasts_S256x16_S256x16x1⟩] concatenates_S256x16x1_S256x16x1_S256x16x1_S256x16x1_S256x16x1_S256x16x1_S256x16x1_S256x16x1_S256x16x1_S256x16x1_S256x16x1_S256x16x1_S256x16x1_S256x16x1_S256x16x1_S256x16x1_S256x16x16_d2 (ix3 p h g) = S h g := by
    intro h g
    rw [cols_apply]
    fin_cases g
    · exact h0 h
    · exact h1 h
    · exact h2 h
    · exact h3 h
    · exact h4 h
    · exact h5 h
    · exact h6 h
    · exact h7 h
    · exact h8 h
    · exact h9 h
    · exact h10 h
    · exact h11 h
    · exact h12 h
    · exact h13 h
    · exact h14 h
    · exact (lanesum_apply v91 reduces_S256x16x64_S256x16 (.inl rfl) rfl p h).trans (h15 h)
  unfold k0_pay23
  exact quot_apply _ _ _ _ p S
    (expo_apply _ _ _ _ p S hX (headmax_apply _ _ _ _ p S hX))
    (headsum_apply _ _ _ _ p (expo S) (expo_apply _ _ _ _ p S hX (headmax_apply _ _ _ _ p S hX))) h g

end Soft

section Mix
open Cert.AttnSpec (Heads Row soft mix proj)

/-- A sum over sixteen heads is the sixteen terms added one after the other onto zero. -/
theorem sum16 {M : Type} [AddCommMonoid M] (f : Fin 16 → M) :
    ∑ g : Fin 16, f g = 0 + f 0 + f 1 + f 2 + f 3 + f 4 + f 5 + f 6 + f 7 + f 8 + f 9 + f 10 + f 11 + f 12 + f 13 + f 14 + f 15 := by
  simp only [Fin.sum_univ_castSucc, Fin.sum_univ_zero]
  rfl

theorem pay24_apply (v10 : FVec Ideal S256x1024 .f32) (v17 v22 v27 v32 v37 v42 v47 v52 v57 v62 v67 v72 v77 v82 v87 : FVec Ideal S256x16 .f32) (v91 : FVec Ideal S256x16x64 .f32)
    (p : Fin 256) (j : Fin 1024) :
    k0_pay24 (F := Ideal) v10 v17 v22 v27 v32 v37 v42 v47 v52 v57 v62 v67 v72 v77 v82 v87 v91 (ix2 p j)
      = 0 + (k0_pay23 (F := Ideal) v17 v22 v27 v32 v37 v42 v47 v52 v57 v62 v67 v72 v77 v82 v87 v91) (ix3 p (headOf j) 0) * v10 (ix2 p (hd 0 (laneOf j))) + (k0_pay23 (F := Ideal) v17 v22 v27 v32 v37 v42 v47 v52 v57 v62 v67 v72 v77 v82 v87 v91) (ix3 p (headOf j) 1) * v10 (ix2 p (hd 1 (laneOf j))) := by
  simp only [k0_pay24, addf_apply, mulf_apply, broadcast_apply]
  rw [wcol_apply 0 (by decide), vcol_apply 0 0 rfl, wcol_apply 1 (by decide), vcol_apply 64 1 rfl]
  show Ideal.ofBits .f32 0x00000000#32 + _ + _ = _
  rw [Ideal.ofBits_zero_f32]
  rfl

theorem pay25_apply (v17 v22 v27 v32 v37 v42 v47 v52 v57 v62 v67 v72 v77 v82 v87 : FVec Ideal S256x16 .f32) (v91 : FVec Ideal S256x16x64 .f32)
    (p : Fin 256) (j : Fin 1024) :
    k0_pay25 (F := Ideal) v17 v22 v27 v32 v37 v42 v47 v52 v57 v62 v67 v72 v77 v82 v87 v91 (ix2 p j) = (k0_pay23 (F := Ideal) v17 v22 v27 v32 v37 v42 v47 v52 v57 v62 v67 v72 v77 v82 v87 v91) (ix3 p (headOf j) 2) := by
  simp only [k0_pay25]
  rw [wcol_apply 2 (by decide)]
  rfl

theorem pay26_apply (v10 : FVec Ideal S256x1024 .f32) (p : Fin 256) (j : Fin 1024) :
    k0_pay26 (F := Ideal) v10 (ix2 p j) = v10 (ix2 p (hd 2 (laneOf j))) := by
  simp only [k0_pay26]
  rw [vcol_apply 128 2 rfl]

theorem pay27_apply (v10 : FVec Ideal S256x1024 .f32) (v118 : FVec Ideal S256x16x16 .f32) (v139 v145 v147 : FVec Ideal S256x1024 .f32)
    (p : Fin 256) (j : Fin 1024) :
    k0_pay27 (F := Ideal) v10 v118 v139 v145 v147 (ix2 p j)
      = v139 (ix2 p j) + v145 (ix2 p j) * v147 (ix2 p j) + v118 (ix3 p (headOf j) 3) * v10 (ix2 p (hd 3 (laneOf j))) + v118 (ix3 p (headOf j) 4) * v10 (ix2 p (hd 4 (laneOf j))) + v118 (ix3 p (headOf j) 5) * v10 (ix2 p (hd 5 (laneOf j))) + v118 (ix3 p (headOf j) 6) * v10 (ix2 p (hd 6 (laneOf j))) + v118 (ix3 p (headOf j) 7) * v10 (ix2 p (hd 7 (laneOf j))) := by
  simp only [k0_pay27, addf_apply, mulf_apply]
  rw [wcol_apply 3 (by decide), vcol_apply 192 3 rfl, wcol_apply 4 (by decide), vcol_apply 256 4 rfl, wcol_apply 5 (by decide), vcol_apply 320 5 rfl, wcol_apply 6 (by decide), vcol_apply 384 6 rfl, wcol_apply 7 (by decide), vcol_apply 448 7 rfl]
  rfl

theorem pay28_apply (v118 : FVec Ideal S256x16x16 .f32) (p : Fin 256) (j : Fin 1024) :
    k0_pay28 (F := Ideal) v118 (ix2 p j) = v118 (ix3 p (headOf j) 8) := by
  simp only [k0_pay28]
  rw [wcol_apply 8 (by decide)]
  rfl

theorem pay29_apply (v10 : FVec Ideal S256x1024 .f32) (p : Fin 256) (j : Fin 1024) :
    k0_pay29 (F := Ideal) v10 (ix2 p j) = v10 (ix2 p (hd 8 (laneOf j))) := by
  simp only [k0_pay29]
  rw [vcol_apply 512 8 rfl]

theorem pay30_apply (v10 : FVec Ideal S256x1024 .f32) (v118 : FVec Ideal S256x16x16 .f32) (v199 v205 v207 : FVec Ideal S256x1024 .f32)
    (p : Fin 256) (j : Fin 1024) :
    k0_pay30 (F := Ideal) v10 v118 v199 v205 v207 (ix2 p j)
      = v199 (ix2 p j) + v205 (ix2 p j) * v207 (ix2 p j) + v118 (ix3 p (headOf j) 9) * v10 (ix2 p (hd 9 (laneOf j))) + v118 (ix3 p (headOf j) 10) * v10 (ix2 p (hd 10 (laneOf j))) + v118 (ix3 p (headOf j) 11) * v10 (ix2 p (hd 11 (laneOf j))) + v118 (ix3 p (headOf j) 12) * v10 (ix2 p (hd 12 (laneOf j))) + v118 (ix3 p (headOf j) 13) * v10 (ix2 p (hd 13 (laneOf j))) := by
  simp only [k0_pay30, addf_apply, mulf_apply]
  rw [wcol_apply 9 (by decide), vcol_apply 576 9 rfl, wcol_apply 10 (by decide), vcol_apply 640 10 rfl, wcol_apply 11 (by decide), vcol_apply 704 11 rfl, wcol_apply 12 (by decide), vcol_apply 768 12 rfl, wcol_apply 13 (by decide), vcol_apply 832 13 rfl]
  rfl

theorem pay31_apply (v118 : FVec Ideal S256x16x16 .f32) (p : Fin 256) (j : Fin 1024) :
    k0_pay31 (F := Ideal) v118 (ix2 p j) = v118 (ix3 p (headOf j) 14) := by
  simp only [k0_pay31]
  rw [wcol_apply 14 (by decide)]
  rfl

theorem pay32_apply (v10 : FVec Ideal S256x1024 .f32) (p : Fin 256) (j : Fin 1024) :
    k0_pay32 (F := Ideal) v10 (ix2 p j) = v10 (ix2 p (hd 14 (laneOf j))) := by
  simp only [k0_pay32]
  rw [vcol_apply 896 14 rfl]

end Mix

section Out

theorem lhs_out_0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem lhs_out_1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
theorem rhs_out_0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
theorem rhs_out_1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- The last matrix product into zero, read at `(p, e)`: the sum over `k` of the row at `(p, k)` times the matrix at `(k, e)`. -/
theorem outproj_apply (Y : FVec Ideal S256x1024 .f32) (W : Vec Ideal S1024x1024 .bf16) (hb : FTy.bits .bf16 < FTy.bits .f32)
    (hs : S1024x1024.ShapeCasts S1024x1024) (p : Fin 256) (e : Fin 1024) :
    matmul (F := Ideal) dot_S256x1024_S1024x1024_S256x1024_1_0_0_1_n_n none (truncf .bf16 Y hb) (shapeCast S1024x1024 W hs : FVec Ideal S1024x1024 .bf16) (constant S256x1024 .f32 0x00000000#32) (ix2 p e)
      = ∑ k : Fin 1024, Y (ix2 p k) * W (ix2 k e) := by
  rw [shapeCast_self]
  simp only [matmul]
  rw [Ideal.matmul_constant_zero_apply, ← Equiv.sum_comp (ValueIdx.contrEquiv1 dot_S256x1024_S1024x1024_S256x1024_1_0_0_1_n_n 1024 rfl rfl).symm]
  refine Finset.sum_congr rfl fun k _ => ?_
  have hk := ValueIdx.contrEquiv1_symm_val dot_S256x1024_S1024x1024_S256x1024_1_0_0_1_n_n 1024 rfl rfl k
  have el : dot_S256x1024_S1024x1024_S256x1024_1_0_0_1_n_n.lhsIdx (ix2 p e) ((ValueIdx.contrEquiv1 dot_S256x1024_S1024x1024_S256x1024_1_0_0_1_n_n 1024 rfl rfl).symm k) = ix2 p k := funext fun a => Fin.ext (by
    match a with
    | ⟨0, _⟩ => exact lhs_out_0 _ _
    | ⟨1, _⟩ => exact (lhs_out_1 _ _).trans hk)
  have er : dot_S256x1024_S1024x1024_S256x1024_1_0_0_1_n_n.rhsIdx (ix2 p e) ((ValueIdx.contrEquiv1 dot_S256x1024_S1024x1024_S256x1024_1_0_0_1_n_n 1024 rfl rfl).symm k) = ix2 k e := funext fun a => Fin.ext (by
    match a with
    | ⟨0, _⟩ => exact (rhs_out_0 _ _).trans hk
    | ⟨1, _⟩ => exact rhs_out_1 _ _)
  rw [el, er]
  rfl

end Out

end Tail

open Tail

theorem attnTail_apply (v10 : FVec Ideal S256x1024 .f32) (v17 v22 v27 v32 v37 v42 v47 v52 v57 v62 v67 v72 v77 v82 v87 : FVec Ideal S256x16 .f32)
    (v91 : FVec Ideal S256x16x64 .f32) (v281 : Vec Ideal S1024x1024 .bf16) (p : Fin 256) (e : Fin 1024)
    (S : Cert.AttnSpec.Heads) (vv : Cert.AttnSpec.Row)
    (h0 : ∀ h : Fin 16, v17 (ix2 p h) = S h 0)
    (h1 : ∀ h : Fin 16, v22 (ix2 p h) = S h 1)
    (h2 : ∀ h : Fin 16, v27 (ix2 p h) = S h 2)
    (h3 : ∀ h : Fin 16, v32 (ix2 p h) = S h 3)
    (h4 : ∀ h : Fin 16, v37 (ix2 p h) = S h 4)
    (h5 : ∀ h : Fin 16, v42 (ix2 p h) = S h 5)
    (h6 : ∀ h : Fin 16, v47 (ix2 p h) = S h 6)
    (h7 : ∀ h : Fin 16, v52 (ix2 p h) = S h 7)
    (h8 : ∀ h : Fin 16, v57 (ix2 p h) = S h 8)
    (h9 : ∀ h : Fin 16, v62 (ix2 p h) = S h 9)
    (h10 : ∀ h : Fin 16, v67 (ix2 p h) = S h 10)
    (h11 : ∀ h : Fin 16, v72 (ix2 p h) = S h 11)
    (h12 : ∀ h : Fin 16, v77 (ix2 p h) = S h 12)
    (h13 : ∀ h : Fin 16, v82 (ix2 p h) = S h 13)
    (h14 : ∀ h : Fin 16, v87 (ix2 p h) = S h 14)
    (h15 : ∀ h : Fin 16, (∑ d : Fin 64, v91 (ix3 p h d)) = S h 15)
    (hv : ∀ j : Fin 1024, v10 (ix2 p j) = vv j) :
    attnTail (F := Ideal) v10 v17 v22 v27 v32 v37 v42 v47 v52 v57 v62 v67 v72 v77 v82 v87 v91 v281 (ix2 p e)
      = Cert.AttnSpec.proj (Cert.AttnSpec.mix (Cert.AttnSpec.soft S) vv) (fun e k => v281 (ix2 k e)) e := by
  have hW := pay23_apply v17 v22 v27 v32 v37 v42 v47 v52 v57 v62 v67 v72 v77 v82 v87 v91 p S
    h0 h1 h2 h3 h4 h5 h6 h7 h8 h9 h10 h11 h12 h13 h14 h15
  simp only [attnTail, k0_pay1]
  refine (outproj_apply _ v281 _ _ p e).trans ?_
  unfold Cert.AttnSpec.proj
  refine Finset.sum_congr rfl fun j _ => ?_
  refine congrArg (· * v281 (ix2 j e)) ?_
  simp only [addf_apply, mulf_apply]
  rw [pay30_apply, pay27_apply, pay24_apply, pay25_apply, pay26_apply, pay28_apply, pay29_apply, pay31_apply, pay32_apply,
    wcol_apply 15 (by decide), vcol_apply 960 15 rfl]
  simp only [hW, hv]
  unfold Cert.AttnSpec.mix
  rw [sum16]
  rfl

end Cert.KernelIdeal.Hand

end
-- ==== Proof.KernelBlockValue.lean ====
/-
  A whole block read at one entry: the head (projections and the sixteen score columns) joined to the tail
  (softmax, mixing, output product). Entry `(p, e)` of the stored block is the spec's row function, scores in
  the first spelling, of token `p`'s loaded row and the four loaded matrices read transposed.
-/
import proofs.«402946_j65481071398785_3_alg».proof.Proof.KernelHeadValue
import proofs.«402946_j65481071398785_3_alg».proof.Proof.KernelTailValue

noncomputable section

namespace Cert.KernelIdeal.Hand

open Idealize.ShloMosaic Idealize.ShloMosaic.TcCoe Idealize.SL.Sem Cert.KernelIdeal Cert.KernelIdeal.Gen Idealize.ShloMosaic.ValueIdx

theorem attnBlock_apply (v0 : Vec Ideal S256x1024 .f32) (v2 v5 v8 v281 : Vec Ideal S1024x1024 .bf16) (p : Fin 256) (e : Fin 1024) :
    attnBlock (F := Ideal) v0 v2 v5 v8 v281 (ix2 p e)
      = Cert.AttnSpec.rowK (fun k => v0 (ix2 p k)) (fun e k => v2 (ix2 k e)) (fun e k => v5 (ix2 k e))
          (fun e k => v8 (ix2 k e)) (fun e k => v281 (ix2 k e)) e := by
  unfold attnBlock Cert.AttnSpec.rowK
  exact attnTail_apply _ _ _ _ _ _ _ _ _ _ _ _ _ _ _ _ _ v281 p e _ _
    (score_col_0 v0 v2 v5 p)
    (score_col_1 v0 v2 v5 p)
    (score_col_2 v0 v2 v5 p)
    (score_col_3 v0 v2 v5 p)
    (score_col_4 v0 v2 v5 p)
    (score_col_5 v0 v2 v5 p)
    (score_col_6 v0 v2 v5 p)
    (score_col_7 v0 v2 v5 p)
    (score_col_8 v0 v2 v5 p)
    (score_col_9 v0 v2 v5 p)
    (score_col_10 v0 v2 v5 p)
    (score_col_11 v0 v2 v5 p)
    (score_col_12 v0 v2 v5 p)
    (score_col_13 v0 v2 v5 p)
    (score_col_14 v0 v2 v5 p)
    (score_col_15 v0 v2 v5 p)
    (value_proj v0 v8 p)

end Cert.KernelIdeal.Hand

end
-- ==== Proof.KernelArray.lean ====
/-
  From blocks to the array. Grid point `t` writes back rows `t·256 … t·256+255` of the result, each entry the
  spec's row function of the same row of `x` (window 0's block at `t` is those rows of `x`) and of the two
  matrices the region finds in windows 1 and 2 (whole arrays, the same block at every point: the three column
  slices of the first at offsets 0, 1024, 2048, and the second whole). The 256 blocks tile the 65536 rows, so
  the array after the run is that function at every index.
-/
import proofs.«402946_j65481071398785_3_alg».proof.Proof.KernelFrame
import proofs.«402946_j65481071398785_3_alg».proof.Proof.KernelBlockValue
import Idealize.ShloMosaic.Lib.Pipeline.Value

noncomputable section

namespace Cert.KernelIdeal.Hand

open Idealize.ShloMosaic Idealize.ShloMosaic.TcCoe Idealize.SL.Sem Cert.KernelIdeal Cert.KernelIdeal.Gen Idealize.ShloMosaic.ValueIdx
open Idealize.ShloMosaic.Pipeline (Dat)

variable (m : (ℓ : Loc nD τ sig) → Buf (Elt Ideal) ℓ) (ρ : Dev nD → PrngReg)

/-- The result array as one function of the token array and the two matrices the region stages. -/
def attnArray (X : S65536x1024.Idx → EReal) (W1 : S1024x3072.Idx → EReal) (W2 : S1024x1024.Idx → EReal) : S65536x1024.Idx → EReal := fun i =>
  Cert.AttnSpec.rowK (fun k => X (ix2 (⟨(i 0).val, idx2_lt0 i⟩ : Fin 65536) k))
    (fun e k => W1 (ix2 k (⟨e.val, by omega⟩ : Fin 3072)))
    (fun e k => W1 (ix2 k (⟨1024 + e.val, by omega⟩ : Fin 3072)))
    (fun e k => W1 (ix2 k (⟨2048 + e.val, by omega⟩ : Fin 3072)))
    (fun e k => W2 (ix2 k e)) (⟨(i 1).val, idx2_lt1 i⟩ : Fin 1024)

/-! ## The body's loads, index by index -/

/-- A pair of zero offsets, as the constant function. -/
theorem zero_offsets : (![0, 0] : Fin 2 → Nat) = fun _ => 0 := funext fun a => by fin_cases a <;> rfl

/-- The token block is loaded whole: entry `(p, k)` of the load is entry `(p, k)` of the block. -/
theorem rRows_idx (p : Fin 256) (k : Fin 1024) : rRows.idx (ix2 p k) = ix2 p k := by
  funext a; apply Fin.ext
  match a with
  | ⟨0, _⟩ => show 0 + 1 * p.val = p.val; omega
  | ⟨1, _⟩ => show 0 + 1 * k.val = k.val; omega

/-- The first column slice of the concatenated matrix starts at column 0. -/
theorem rQ_idx (k e : Fin 1024) : rQ.idx (ix2 k e) = ix2 k (⟨e.val, by omega⟩ : Fin 3072) := by
  funext a; apply Fin.ext
  match a with
  | ⟨0, _⟩ => show 0 + 1 * k.val = k.val; omega
  | ⟨1, _⟩ => show 0 + 1 * e.val = e.val; omega

/-- The second starts at column 1024. -/
theorem rK_idx (k e : Fin 1024) : rK.idx (ix2 k e) = ix2 k (⟨1024 + e.val, by omega⟩ : Fin 3072) := by
  funext a; apply Fin.ext
  match a with
  | ⟨0, _⟩ => show 0 + 1 * k.val = k.val; omega
  | ⟨1, _⟩ => show 1024 + 1 * e.val = 1024 + e.val; omega

/-- The third starts at column 2048. -/
theorem rV_idx (k e : Fin 1024) : rV.idx (ix2 k e) = ix2 k (⟨2048 + e.val, by omega⟩ : Fin 3072) := by
  funext a; apply Fin.ext
  match a with
  | ⟨0, _⟩ => show 0 + 1 * k.val = k.val; omega
  | ⟨1, _⟩ => show 2048 + 1 * e.val = 2048 + e.val; omega

/-- The output matrix is loaded whole. -/
theorem rO_idx (k e : Fin 1024) : rO.idx (ix2 k e) = ix2 k e := by
  funext a; apply Fin.ext
  match a with
  | ⟨0, _⟩ => show 0 + 1 * k.val = k.val; omega
  | ⟨1, _⟩ => show 0 + 1 * e.val = e.val; omega

/-- One entry of a stored block, over any three staged pieces: if row `p` of the token block is row `i 0` of the
    token array `X`, the two matrix blocks are the matrices `W1`, `W2` themselves, and `e` is column `i 1`, then
    entry `(p, e)` of the block is the array function at `i`. -/
theorem block_entry (X : S65536x1024.Idx → EReal) (W1 : S1024x3072.Idx → EReal) (W2 : S1024x1024.Idx → EReal)
    (x0 : Vec Ideal S256x1024 .f32) (x1 : Vec Ideal S1024x3072 .bf16) (x2 : Vec Ideal S1024x1024 .bf16)
    (p : Fin 256) (e : Fin 1024) (i : S65536x1024.Idx)
    (h0 : ∀ k : Fin 1024, x0 (ix2 p k) = X (ix2 (⟨(i 0).val, idx2_lt0 i⟩ : Fin 65536) k))
    (h1 : x1 = W1) (h2 : x2 = W2) (hi : (i 1).val = e.val) :
    attnBlock (F := Ideal) (View.ld x0 rRows) (View.ld x1 rQ) (View.ld x1 rK) (View.ld x1 rV) (View.ld x2 rO) (ix2 p e)
      = attnArray X W1 W2 i := by
  subst h1 h2
  rw [attnBlock_apply]
  unfold attnArray
  have he : e = (⟨(i 1).val, idx2_lt1 i⟩ : Fin 1024) := Fin.ext hi.symm
  subst he
  have a0 : (fun k => View.ld x0 rRows (ix2 p k)) = fun k => X (ix2 (⟨(i 0).val, idx2_lt0 i⟩ : Fin 65536) k) :=
    funext fun k => by show x0 (rRows.idx (ix2 p k)) = _; rw [rRows_idx, h0]
  have a1 : (fun e k => View.ld x1 rQ (ix2 k e)) = fun (e k : Fin 1024) => x1 (ix2 k (⟨e.val, by omega⟩ : Fin 3072)) :=
    funext fun e => funext fun k => by show x1 (rQ.idx (ix2 k e)) = _; rw [rQ_idx]
  have a2 : (fun e k => View.ld x1 rK (ix2 k e)) = fun (e k : Fin 1024) => x1 (ix2 k (⟨1024 + e.val, by omega⟩ : Fin 3072)) :=
    funext fun e => funext fun k => by show x1 (rK.idx (ix2 k e)) = _; rw [rK_idx]
  have a3 : (fun e k => View.ld x1 rV (ix2 k e)) = fun (e k : Fin 1024) => x1 (ix2 k (⟨2048 + e.val, by omega⟩ : Fin 3072)) :=
    funext fun e => funext fun k => by show x1 (rV.idx (ix2 k e)) = _; rw [rV_idx]
  have a4 : (fun e k => View.ld x2 rO (ix2 k e)) = fun (e k : Fin 1024) => x2 (ix2 k e) :=
    funext fun e => funext fun k => by show x2 (rO.idx (ix2 k e)) = _; rw [rO_idx]
  rw [a0, a1, a2, a3, a4]

/-! ## The windows' blocks as parts of their arrays -/

/-- The windows' index maps over the grid: the two row windows' block index is the point itself on the row axis,
    the two matrix windows' is zero, and every window's is zero on the column axis. -/
theorem blockIndex_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The grid has 256 points. -/
theorem point_lt (t : Fin cfg0.N) : t.val < 256 := lt_of_lt_of_eq t.isLt N_0

/-- The token window's block at point `t` is rows `t·256 … t·256 + 255` of the token array. -/
theorem tokenBlock_apply (c : Dev nD) (t : Fin cfg0.N) (p : Fin 256) (k : Fin 1024) (r : Fin 65536) (hr : r.val = t.val * 256 + p.val) :
    (iblk m c 0 t : Vec Ideal S256x1024 .f32) (ix2 p k) = V m c main_arg0 (ix2 r k) := by
  obtain ⟨e0, e1, -⟩ := blockIndex_facts t
  show V m c main_arg0 (((cfg0.win 0).blk t).view.emb (ix2 p k)) = V m c main_arg0 (ix2 r k)
  congr 1
  funext a; apply Fin.ext
  match a with
  | ⟨0, _⟩ => show win0_0.index t (0 : Fin 2) * 256 + 1 * p.val = r.val; omega
  | ⟨1, _⟩ => show win0_0.index t (1 : Fin 2) * 1024 + 1 * k.val = k.val; omega

/-- The concatenated matrix's block is the whole matrix at every point. -/
theorem qkvBlock_eq (c : Dev nD) (t : Fin cfg0.N) : (iblk m c 1 t : Vec Ideal S1024x3072 .bf16) = V m c main_v4 := by
  obtain ⟨-, -, e0, e1, -⟩ := blockIndex_facts t
  funext y
  show V m c main_v4 (((cfg0.win 1).blk t).view.emb y) = V m c main_v4 y
  congr 1
  funext a; apply Fin.ext
  match a with
  | ⟨0, _⟩ => show win0_1.index t (0 : Fin 2) * 1024 + 1 * (y 0).val = (y 0).val; omega
  | ⟨1, _⟩ => show win0_1.index t (1 : Fin 2) * 3072 + 1 * (y 1).val = (y 1).val; omega

/-- The output matrix's block is the whole matrix at every point. -/
theorem outBlock_eq (c : Dev nD) (t : Fin cfg0.N) : (iblk m c 2 t : Vec Ideal S1024x1024 .bf16) = V m c main_v6 := by
  obtain ⟨-, -, -, -, e0, e1, -⟩ := blockIndex_facts t
  funext y
  show V m c main_v6 (((cfg0.win 2).blk t).view.emb y) = V m c main_v6 y
  congr 1
  funext a; apply Fin.ext
  match a with
  | ⟨0, _⟩ => show win0_2.index t (0 : Fin 2) * 1024 + 1 * (y 0).val = (y 0).val; omega
  | ⟨1, _⟩ => show win0_2.index t (1 : Fin 2) * 1024 + 1 * (y 1).val = (y 1).val; omega

/-! ## What each point writes back, and the cover -/

/-- What point `t` writes back is block `t` of the one array function: entry `(p, e)` of the stored block is the
    function at row `t·256 + p`, column `e`. -/
theorem written_eq (c : Dev nD) (t : Fin cfg0.N) :
    (dats (F := Ideal) m 0 c).flushed 3 t
      = ((cfg0.win 3).blk t).view.read (Elt Ideal) (attnArray (V m c main_arg0) (V m c main_v4) (V m c main_v6)) := by
  show (cfg0.win 3).cut (grid0.coords t) ((dats m 0 c).after 3 t) = _
  rw [after0_3]
  unfold outRows
  rw [View.canon_unit_zero zero_offsets]
  obtain ⟨-, -, -, -, -, -, e0, e1⟩ := blockIndex_facts t
  have ht := point_lt t
  funext y
  obtain ⟨p, e, rfl⟩ : ∃ (p : Fin 256) (e : Fin 1024), y = ix2 p e := ⟨y 0, y 1, eq_ix2 y⟩
  show attnBlock (F := Ideal) (View.ld (iblk m c 0 t) rRows) (View.ld (iblk m c 1 t) rQ) (View.ld (iblk m c 1 t) rK)
        (View.ld (iblk m c 1 t) rV) (View.ld (iblk m c 2 t) rO) (ix2 p e)
      = attnArray (V m c main_arg0) (V m c main_v4) (V m c main_v6) (((cfg0.win 3).blk t).view.emb (ix2 p e))
  have hrow : ((((cfg0.win 3).blk t).view.emb (ix2 p e) : S65536x1024.Idx) 0).val = t.val * 256 + p.val := by
    show win0_3.index t (0 : Fin 2) * 256 + 1 * p.val = t.val * 256 + p.val; omega
  have hcol : ((((cfg0.win 3).blk t).view.emb (ix2 p e) : S65536x1024.Idx) 1).val = e.val := by
    show win0_3.index t (1 : Fin 2) * 1024 + 1 * e.val = e.val; omega
  exact block_entry (V m c main_arg0) (V m c main_v4) (V m c main_v6) (iblk m c 0 t) (iblk m c 1 t) (iblk m c 2 t) p e
    (((cfg0.win 3).blk t).view.emb (ix2 p e)) (fun k => tokenBlock_apply m c t p k _ hrow) (qkvBlock_eq m c t) (outBlock_eq m c t) hcol

/-- An index of the result array is in point `t`'s block iff each coordinate is in the block's range on its axis. -/
theorem mem_resultBlock (t : Fin cfg0.N) (i : S65536x1024.Idx) :
    i ∈ ((cfg0.win 3).blk t).view.set ↔ ∀ a : Fin 2, win0_3.index t a * S256x1024.size a ≤ (i a).val ∧ (i a).val < win0_3.index t a * S256x1024.size a + S256x1024.size a := by
  show i ∈ ((View.whole main_v7).slice (win0_3.rect t)).set ↔ _
  rw [View.set_slice_whole, Rect.mem_set_unit]
  exact Iff.rfl

/-- The 256 blocks tile the 65536 rows: row `r` is in the block of point `r / 256`, and every point writes back. -/
theorem rows_covered (i : S65536x1024.Idx) :
    ∃ t : Fin cfg0.N, (cfg0.win 3).flush t = true ∧ i ∈ ((cfg0.win 3).blk t).view.set := by
  have hi0 : (i 0).val < 65536 := idx2_lt0 i
  have hi1 : (i 1).val < 1024 := idx2_lt1 i
  have hN : (i 0).val / 256 < cfg0.N := lt_of_lt_of_eq (show (i 0).val / 256 < 256 by omega) N_0.symm
  refine ⟨⟨(i 0).val / 256, hN⟩, flush0_3 _, ?_⟩
  obtain ⟨-, -, -, -, -, -, e0, e1⟩ := blockIndex_facts ⟨(i 0).val / 256, hN⟩
  rw [mem_resultBlock]
  intro a
  match a with
  | ⟨0, _⟩ =>
    show win0_3.index ⟨(i 0).val / 256, hN⟩ (0 : Fin 2) * 256 ≤ (i 0).val ∧ (i 0).val < win0_3.index ⟨(i 0).val / 256, hN⟩ (0 : Fin 2) * 256 + 256
    rw [e0]; show (i 0).val / 256 * 256 ≤ (i 0).val ∧ (i 0).val < (i 0).val / 256 * 256 + 256; omega
  | ⟨1, _⟩ =>
    show win0_3.index ⟨(i 0).val / 256, hN⟩ (1 : Fin 2) * 1024 ≤ (i 1).val ∧ (i 1).val < win0_3.index ⟨(i 0).val / 256, hN⟩ (1 : Fin 2) * 1024 + 1024
    rw [e1]; omega

/-- The result array after the run. -/
theorem final (c : Dev nD) :
    (dats (F := Ideal) m 0 c).arrAt 3 cfg0.N = attnArray (V m c main_arg0) (V m c main_v4) (V m c main_v6) :=
  (dats m 0 c).arrAt_eq_of_cover 3 (attnArray (V m c main_arg0) (V m c main_v4) (V m c main_v6))
    (fun t _ => written_eq m c t) rows_covered

end Cert.KernelIdeal.Hand

end
-- ==== Proof.KernelHost.lean ====
/-
  The host operations before the region, read at an index. The first staged matrix is the three weight
  matrices transposed and laid side by side along the columns, then changed of format (the identity on the
  extended reals): its entry `(k, e)` is `Wq (e, k)` for `e < 1024`, `Wk (e − 1024, k)` for the next 1024 columns,
  `Wv (e − 2048, k)` for the last. The second is `Wo` transposed: its entry `(k, e)` is `Wo (e, k)`.
-/
import proofs.«402946_j65481071398785_3_alg».proof.Proof.KernelFrame
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Hand

open Idealize.ShloMosaic Idealize.ShloMosaic.TcCoe Idealize.SL.Sem Cert.KernelIdeal Cert.KernelIdeal.Gen Idealize.ShloMosaic.ValueIdx

variable (m : (ℓ : Loc nD τ sig) → Buf (Elt Ideal) ℓ)

/-- The first staged matrix as a term of the launch memory: the three weight matrices transposed, laid side by
    side along the columns, then changed of format. -/
theorem V_main_v4_eq (c : Dev nD) :
    (V m c main_v4 : FVec Ideal S1024x3072 .bf16) = truncf .bf16 (concatenate S1024x3072 1
      [⟨S1024x1024, transpose S1024x1024 [1, 0] (m ((c : Thread nD τ).loc main_arg1) : FVec Ideal S1024x1024 .f32) transposes_S1024x1024_S1024x1024_1_0⟩,
       ⟨S1024x1024, transpose S1024x1024 [1, 0] (m ((c : Thread nD τ).loc main_arg2) : FVec Ideal S1024x1024 .f32) transposes_S1024x1024_S1024x1024_1_0⟩,
       ⟨S1024x1024, transpose S1024x1024 [1, 0] (m ((c : Thread nD τ).loc main_arg3) : FVec Ideal S1024x1024 .f32) transposes_S1024x1024_S1024x1024_1_0⟩]
      concatenates_S1024x1024_S1024x1024_S1024x1024_S1024x3072_d1 : FVec Ideal S1024x3072 .f32) bitsLt_bf16_f32 := by
  dsimp only [V, hostOps0]
  after_results
  -- the concatenation's three operands, each at its own reference
  dsimp only [Matrix.cons_val_zero, Matrix.cons_val_one, Matrix.cons_val]
  repeat (first
    | rw [StableHlo.unary_result]
    | (rw [StableHlo.unary_result_ne]; rotate_left; decide))

/-- The second staged matrix as a term of the launch memory: the output matrix transposed, then changed of format. -/
theorem V_main_v6_eq (c : Dev nD) :
    (V m c main_v6 : FVec Ideal S1024x1024 .bf16) = truncf .bf16 (transpose S1024x1024 [1, 0]
      (m ((c : Thread nD τ).loc main_arg4) : FVec Ideal S1024x1024 .f32) transposes_S1024x1024_S1024x1024_1_0 : FVec Ideal S1024x1024 .f32) bitsLt_bf16_f32 := by
  dsimp only [V, hostOps0]
  after_results

/-- A transposed square matrix at `(k, e)` is the matrix at `(e, k)`. -/
theorem transpose_sq_apply (x : FVec Ideal S1024x1024 .f32) (k e : Fin 1024) :
    transpose S1024x1024 [1, 0] x transposes_S1024x1024_S1024x1024_1_0 (ix2 k e) = x (ix2 e k) :=
  transpose_apply [1, 0] x transposes_S1024x1024_S1024x1024_1_0 (ix2 k e) (ix2 e k) (fun b => match b with
    | ⟨0, _⟩ => rfl
    | ⟨1, _⟩ => rfl)

/-- Columns `0 … 1023` of the first staged matrix: the first piece, `Wq` transposed. -/
theorem V_wq (c : Dev nD) (k e : Fin 1024) :
    V m c main_v4 (ix2 k (⟨e.val, by omega⟩ : Fin 3072)) = m ((c : Thread nD τ).loc main_arg1) (ix2 e k) := by
  refine (congrFun (V_main_v4_eq m c) _).trans ?_
  rw [truncf_apply]
  refine (concatenate_apply_piece (1 : Fin S1024x3072.rank) _ _
    (ix2 k (⟨e.val, by omega⟩ : Fin 3072)) 0 (by simp) S1024x1024 _ rfl rfl 0 rfl (ix2 k e) ?_ ?_).trans ?_
  · intro b hb
    match b with
    | ⟨0, _⟩ => rfl
    | ⟨1, _⟩ => exact absurd rfl hb
  · exact Nat.zero_add _
  · exact transpose_sq_apply _ k e
/-- Columns `1024 … 2047`: the second piece, `Wk` transposed, at the column less `1024`. -/
theorem V_wk (c : Dev nD) (k e : Fin 1024) :
    V m c main_v4 (ix2 k (⟨1024 + e.val, by omega⟩ : Fin 3072)) = m ((c : Thread nD τ).loc main_arg2) (ix2 e k) := by
  refine (congrFun (V_main_v4_eq m c) _).trans ?_
  rw [truncf_apply]
  refine (concatenate_apply_piece (1 : Fin S1024x3072.rank) _ _
    (ix2 k (⟨1024 + e.val, by omega⟩ : Fin 3072)) 1 (by simp) S1024x1024 _ rfl rfl 1024 rfl (ix2 k e) ?_ ?_).trans ?_
  · intro b hb
    match b with
    | ⟨0, _⟩ => rfl
    | ⟨1, _⟩ => exact absurd rfl hb
  · rfl
  · exact transpose_sq_apply _ k e
/-- Columns `2048 … 3071`: the third piece, `Wv` transposed, at the column less `2048`. -/
theorem V_wv (c : Dev nD) (k e : Fin 1024) :
    V m c main_v4 (ix2 k (⟨2048 + e.val, by omega⟩ : Fin 3072)) = m ((c : Thread nD τ).loc main_arg3) (ix2 e k) := by
  refine (congrFun (V_main_v4_eq m c) _).trans ?_
  rw [truncf_apply]
  refine (concatenate_apply_piece (1 : Fin S1024x3072.rank) _ _
    (ix2 k (⟨2048 + e.val, by omega⟩ : Fin 3072)) 2 (by simp) S1024x1024 _ rfl rfl 2048 rfl (ix2 k e) ?_ ?_).trans ?_
  · intro b hb
    match b with
    | ⟨0, _⟩ => rfl
    | ⟨1, _⟩ => exact absurd rfl hb
  · rfl
  · exact transpose_sq_apply _ k e
/-- The second staged matrix at `(k, e)` is `Wo (e, k)`. -/
theorem V_wo (c : Dev nD) (k e : Fin 1024) :
    V m c main_v6 (ix2 k e) = m ((c : Thread nD τ).loc main_arg4) (ix2 e k) := by
  refine (congrFun (V_main_v6_eq m c) _).trans ?_
  rw [truncf_apply]
  exact transpose_sq_apply _ k e

end Cert.KernelIdeal.Hand

end
-- ==== Proof.KernelRun.lean ====
/-
  The idealized kernel's run, read: every weakly fair execution ends with the result array holding, at token `n`
  and feature `e`, the spec's row function (scores in the first spelling) of token `n`'s row of `x` and the four
  weight matrices as launched, and with the five arguments unchanged. The region finds `x` as launched and
  the two staged matrices as the host operations built them from the weights (transposed, side by side), so the
  array function of the staged arrays is this function of the launch memory.
-/
import proofs.«402946_j65481071398785_3_alg».proof.Proof.KernelArray
import proofs.«402946_j65481071398785_3_alg».proof.Proof.KernelHost

noncomputable section

namespace Cert.KernelIdeal.Hand

open Idealize.ShloMosaic Idealize.ShloMosaic.TcCoe Idealize.SL.Sem Cert.KernelIdeal Cert.KernelIdeal.Gen Idealize.ShloMosaic.ValueIdx
open Idealize.ShloMosaic.Pipeline (Dat)

variable (m : (ℓ : Loc nD τ sig) → Buf (Elt Ideal) ℓ) (ρ : Dev nD → PrngReg)

/-- The result array as a function of the launch memory. -/
def result (c : Dev nD) : S65536x1024.Idx → EReal := fun i =>
  Cert.AttnSpec.rowK (fun k => m ((c : Thread nD τ).loc main_arg0) (ix2 (⟨(i 0).val, idx2_lt0 i⟩ : Fin 65536) k))
    (fun e k => m ((c : Thread nD τ).loc main_arg1) (ix2 e k)) (fun e k => m ((c : Thread nD τ).loc main_arg2) (ix2 e k))
    (fun e k => m ((c : Thread nD τ).loc main_arg3) (ix2 e k)) (fun e k => m ((c : Thread nD τ).loc main_arg4) (ix2 e k)) (⟨(i 1).val, idx2_lt1 i⟩ : Fin 1024)

/-- The array function of what the region finds is that function of the launch memory. -/
theorem attnArray_args (c : Dev nD) : attnArray (V m c main_arg0) (V m c main_v4) (V m c main_v6) = result m c := by
  have hq : (fun (e k : Fin 1024) => V m c main_v4 (ix2 k (⟨e.val, by omega⟩ : Fin 3072))) = fun e k => m ((c : Thread nD τ).loc main_arg1) (ix2 e k) :=
    funext fun e => funext fun k => V_wq m c k e
  have hk : (fun (e k : Fin 1024) => V m c main_v4 (ix2 k (⟨1024 + e.val, by omega⟩ : Fin 3072))) = fun e k => m ((c : Thread nD τ).loc main_arg2) (ix2 e k) :=
    funext fun e => funext fun k => V_wk m c k e
  have hv : (fun (e k : Fin 1024) => V m c main_v4 (ix2 k (⟨2048 + e.val, by omega⟩ : Fin 3072))) = fun e k => m ((c : Thread nD τ).loc main_arg3) (ix2 e k) :=
    funext fun e => funext fun k => V_wv m c k e
  have ho : (fun (e k : Fin 1024) => V m c main_v6 (ix2 k e)) = fun e k => m ((c : Thread nD τ).loc main_arg4) (ix2 e k) :=
    funext fun e => funext fun k => V_wo m c k e
  funext i
  unfold attnArray result
  rw [V_main_arg0, hq, hk, hv, ho]

theorem run_result : θ_run defs (onTc (τ := τ) (main (F := Ideal))) ⟨m, fun _ => 0, ρ⟩ fun r => ∀ c : Dev nD,
      r.2.mem ((c : Thread nD τ).loc main_v7) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 3).trans ((final m c).trans (attnArray_args m c)),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.KernelIdeal.Hand

end
-- ==== Proof.RefValue.lean ====
/-
  The reference read at one entry. Its result at token `n`, feature `e` is the row function of the spec in the
  second spelling of the scores (the lane sum divided by `√64`), of token `n`'s row of `x` and the four weight
  matrices as given: each `x @ Wᵀ` is a transpose followed by a product, the heads are a regrouping of the row
  as 16 × 64, the two contractions are sums over lanes and over heads, and the softmax takes its row maximum as a
  fold from `-∞` (the further maximum with `-∞` changes nothing) and its denominator as zero plus the sum.
-/
import proofs.«402946_j65481071398785_3_alg».proof.Proof.Gen.ReferenceIdeal.Read
import proofs.«402946_j65481071398785_3_alg».proof.Proof.AttnSpec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Idealize.ShloMosaic Idealize.SL.Sem Cert.ReferenceIdeal Cert.ReferenceIdeal.Gen Idealize.ShloMosaic.ValueIdx

open Cert.ReferenceIdeal.Read Cert.AttnSpec

/-- The token array and a weight matrix, as the reference's arguments. -/
abbrev Tok := (⟨S65536x1024, .f32⟩ : BufTy).Contents (Elt Ideal)
abbrev Wt := (⟨S1024x1024, .f32⟩ : BufTy).Contents (Elt Ideal)

/-- Token `n`'s row. -/
abbrev rowOf (x0 : Tok) (n : Fin 65536) : Row := fun k => x0 (ix2 n k)
/-- A weight array as a matrix. -/
abbrev matOf (w : Wt) : Mat := fun e k => w (ix2 e k)

/-! ### The three projections: a transpose followed by a product is `x · Wᵀ` -/

theorem v1_at (x0 : Tok) (x1 : Wt) (n : Fin 65536) (j : Fin 1024) :
    val_main_v1 (F := Ideal) x0 x1 (ix2 n j) = proj (rowOf x0 n) (matOf x1) j := by
  rw [val_main_v1_apply]
  unfold proj
  refine Finset.sum_congr rfl fun k _ => ?_
  rw [val_main_v0_apply]
  have e1 : lidx_main_v1 (ix2 n j) k = ix2 n k :=
    funext fun a => Fin.ext (by match a with | ⟨0, _⟩ => rfl | ⟨1, _⟩ => rfl)
  have e2 : idx_main_v0 (ridx_main_v1 (ix2 n j) k) = ix2 j k :=
    funext fun a => Fin.ext (by match a with | ⟨0, _⟩ => rfl | ⟨1, _⟩ => rfl)
  rw [e1, e2]

theorem v3_at (x0 : Tok) (x2 : Wt) (n : Fin 65536) (j : Fin 1024) :
    val_main_v3 (F := Ideal) x0 x2 (ix2 n j) = proj (rowOf x0 n) (matOf x2) j := v1_at x0 x2 n j

theorem v5_at (x0 : Tok) (x3 : Wt) (n : Fin 65536) (j : Fin 1024) :
    val_main_v5 (F := Ideal) x0 x3 (ix2 n j) = proj (rowOf x0 n) (matOf x3) j := v1_at x0 x3 n j

/-! ### The rows regrouped as 16 heads of 64 lanes: entry `(n, h, d)` is entry `(n, h * 64 + d)` -/

theorem regroup (n : Fin 65536) (h : Fin 16) (d : Fin 64) : idx_main_v6 (ix3 n h d) = ix2 n (hd h d) :=
  funext fun a => Fin.ext (by
    have hn := n.isLt; have hh := h.isLt; have hdd := d.isLt
    match a with
    | ⟨0, _⟩ => show ((n.val * 16 + h.val) * 64 + d.val) / 1024 = n.val; omega
    | ⟨1, _⟩ => show ((n.val * 16 + h.val) * 64 + d.val) % 1024 = h.val * 64 + d.val; omega)

theorem v6_at (x0 : Tok) (x1 : Wt) (n : Fin 65536) (h : Fin 16) (d : Fin 64) :
    val_main_v6 (F := Ideal) x0 x1 (ix3 n h d) = proj (rowOf x0 n) (matOf x1) (hd h d) := by
  rw [val_main_v6_apply, regroup, v1_at]

theorem v7_at (x0 : Tok) (x2 : Wt) (n : Fin 65536) (h : Fin 16) (d : Fin 64) :
    val_main_v7 (F := Ideal) x0 x2 (ix3 n h d) = proj (rowOf x0 n) (matOf x2) (hd h d) := v6_at x0 x2 n h d

theorem v8_at (x0 : Tok) (x3 : Wt) (n : Fin 65536) (h : Fin 16) (d : Fin 64) :
    val_main_v8 (F := Ideal) x0 x3 (ix3 n h d) = proj (rowOf x0 n) (matOf x3) (hd h d) := v6_at x0 x3 n h d

/-! ### The scores: a lane sum divided by `√64` -/

/-- The scores of token `n`'s row. -/
abbrev scoresOf (x0 : Tok) (x1 x2 : Wt) (n : Fin 65536) : Heads :=
  scoreR (proj (rowOf x0 n) (matOf x1)) (proj (rowOf x0 n) (matOf x2))

theorem v12_at (x0 : Tok) (x1 x2 : Wt) (n : Fin 65536) (h g : Fin 16) :
    val_main_v12 (F := Ideal) x0 x1 x2 (ix3 n h g) = scoresOf x0 x1 x2 n h g := by
  rw [val_main_v12_apply, val_main_v9_apply, val_main_v11_apply, val_main_v10_apply, val_main_cst_apply]
  unfold scoresOf scoreR
  simp only [Ideal.hostDivf_def, Ideal.hostUnary_sqrt_def, Ideal.ofBits_def]
  refine congrArg (fun s => Ideal.div s _) (Finset.sum_congr rfl fun k _ => ?_)
  have e1 : lidx_main_v9 (ix3 n h g) k = ix3 n h k :=
    funext fun a => Fin.ext (by match a with | ⟨0, _⟩ => rfl | ⟨1, _⟩ => rfl | ⟨2, _⟩ => rfl)
  have e2 : ridx_main_v9 (ix3 n h g) k = ix3 n g k :=
    funext fun a => Fin.ext (by match a with | ⟨0, _⟩ => rfl | ⟨1, _⟩ => rfl | ⟨2, _⟩ => rfl)
  rw [e1, e2, v6_at, v7_at]

/-! ### The row maximum: a fold of `max` from `-∞` over the second head -/

/-- The reduction over the last axis of the 16 × 16 tables drops that axis. -/
theorem red2 : S65536x16x16.Reduces [2] S65536x16 := by decide

/-- Entry `(n, h)` of the reduced array with the dropped coordinate `g` put back is `(n, h, g)`. -/
theorem lift_at (n : Fin 65536) (h g : Fin 16) : red2.lift (ix2 n h) g = ix3 n h g :=
  funext fun a => Fin.ext (by match a with | ⟨0, _⟩ => rfl | ⟨1, _⟩ => rfl | ⟨2, _⟩ => rfl)

theorem v13_at (x0 : Tok) (x1 x2 : Wt) (n : Fin 65536) (h : Fin 16) :
    val_main_v13 (F := Ideal) x0 x1 x2 (ix2 n h) = rowMax (scoresOf x0 x1 x2 n) h := by
  unfold val_main_v13
  rw [Host.reduce_eq_fold_single (FloatOps.maximumf (F := Ideal) (φ := .f32)) _ _ reducesTo_S65536x16x16_S65536x16_d2
    red2 h_S_ (ix2 n h)]
  have ef : (val_main_v12 (F := Ideal) x0 x1 x2 ∘ red2.lift (ix2 n h)) = scoresOf x0 x1 x2 n h :=
    funext fun (g : Fin 16) => by
      show val_main_v12 (F := Ideal) x0 x1 x2 (red2.lift (ix2 n h) g) = _
      rw [lift_at, v12_at]
  rw [ef]
  rfl

/-- The further maximum with `-∞` changes nothing. -/
theorem v15_at (x0 : Tok) (x1 x2 : Wt) (n : Fin 65536) (h : Fin 16) :
    val_main_v15 (F := Ideal) x0 x1 x2 (ix2 n h) = rowMax (scoresOf x0 x1 x2 n) h := by
  rw [val_main_v15_apply, val_main_v14_apply, val_main_cst_1_apply, v13_at]
  show max negInf _ = _
  rw [negInf_eq]
  exact max_bot_left _

/-! ### The softmax: exponentials of the scores less their row's maximum, over their sum -/

theorem v19_at (x0 : Tok) (x1 x2 : Wt) (n : Fin 65536) (h g : Fin 16) :
    val_main_v19 (F := Ideal) x0 x1 x2 (ix3 n h g) = expo (scoresOf x0 x1 x2 n) h g := by
  rw [val_main_v19_apply, val_main_v18_apply, val_main_v17_apply, val_main_v16_apply, v12_at]
  have e : idx_main_v16 (idx_main_v17 (ix3 n h g)) = ix2 n h :=
    funext fun a => Fin.ext (by match a with | ⟨0, _⟩ => rfl | ⟨1, _⟩ => rfl)
  rw [e, v15_at]
  rfl

theorem v20_at (x0 : Tok) (x1 x2 : Wt) (n : Fin 65536) (h : Fin 16) :
    val_main_v20 (F := Ideal) x0 x1 x2 (ix2 n h) = ∑ g : Fin 16, expo (scoresOf x0 x1 x2 n) h g := by
  rw [val_main_v20_apply, val_main_cst_2_apply, Ideal.ofBits_def, Ideal.ofBits_zero_f32, zero_add]
  refine Finset.sum_congr rfl fun g _ => ?_
  have e : idx_main_v20 (ix2 n h) g = ix3 n h g :=
    funext fun a => Fin.ext (by match a with | ⟨0, _⟩ => rfl | ⟨1, _⟩ => rfl | ⟨2, _⟩ => rfl)
  rw [e, v19_at]

theorem v23_at (x0 : Tok) (x1 x2 : Wt) (n : Fin 65536) (h g : Fin 16) :
    val_main_v23 (F := Ideal) x0 x1 x2 (ix3 n h g) = soft (scoresOf x0 x1 x2 n) h g := by
  rw [val_main_v23_apply, val_main_v22_apply, val_main_v21_apply, v19_at]
  have e : idx_main_v21 (idx_main_v22 (ix3 n h g)) = ix2 n h :=
    funext fun a => Fin.ext (by match a with | ⟨0, _⟩ => rfl | ⟨1, _⟩ => rfl)
  rw [e, v20_at]
  rfl

/-! ### The weights applied to the value heads, regrouped as a row, times `Woᵀ` -/

theorem v24_at (x0 : Tok) (x1 x2 x3 : Wt) (n : Fin 65536) (h : Fin 16) (d : Fin 64) :
    val_main_v24 (F := Ideal) x0 x1 x2 x3 (ix3 n h d)
      = ∑ g : Fin 16, soft (scoresOf x0 x1 x2 n) h g * proj (rowOf x0 n) (matOf x3) (hd g d) := by
  rw [val_main_v24_apply]
  refine Finset.sum_congr rfl fun g _ => ?_
  have e1 : lidx_main_v24 (ix3 n h d) g = ix3 n h g :=
    funext fun a => Fin.ext (by match a with | ⟨0, _⟩ => rfl | ⟨1, _⟩ => rfl | ⟨2, _⟩ => rfl)
  have e2 : ridx_main_v24 (ix3 n h d) g = ix3 n g d :=
    funext fun a => Fin.ext (by match a with | ⟨0, _⟩ => rfl | ⟨1, _⟩ => rfl | ⟨2, _⟩ => rfl)
  rw [e1, e2, v23_at, v8_at]

/-- Entry `(n, j)` of the row is entry `(n, j / 64, j % 64)` of the heads. -/
theorem ungroup (n : Fin 65536) (j : Fin 1024) : idx_main_v25 (ix2 n j) = ix3 n (headOf j) (laneOf j) :=
  funext fun a => Fin.ext (by
    have hn := n.isLt; have hj := j.isLt
    match a with
    | ⟨0, _⟩ => show (n.val * 1024 + j.val) / 1024 = n.val; omega
    | ⟨1, _⟩ => show (n.val * 1024 + j.val) / 64 % 16 = j.val / 64; omega
    | ⟨2, _⟩ => show (n.val * 1024 + j.val) % 64 = j.val % 64; omega)

theorem v25_at (x0 : Tok) (x1 x2 x3 : Wt) (n : Fin 65536) (j : Fin 1024) :
    val_main_v25 (F := Ideal) x0 x1 x2 x3 (ix2 n j)
      = mix (soft (scoresOf x0 x1 x2 n)) (proj (rowOf x0 n) (matOf x3)) j := by
  rw [val_main_v25_apply, ungroup, v24_at]
  rfl

theorem ref_apply (x0 : (⟨S65536x1024, .f32⟩ : BufTy).Contents (Elt Ideal)) (x1 x2 x3 x4 : (⟨S1024x1024, .f32⟩ : BufTy).Contents (Elt Ideal))
    (n : Fin 65536) (e : Fin 1024) :
    Cert.ReferenceIdeal.Read.val_main_v27 (F := Ideal) x0 x1 x2 x3 x4 (ix2 n e)
      = Cert.AttnSpec.rowR (fun k => x0 (ix2 n k)) (fun e k => x1 (ix2 e k)) (fun e k => x2 (ix2 e k))
          (fun e k => x3 (ix2 e k)) (fun e k => x4 (ix2 e k)) e := by
  rw [val_main_v27_apply]
  unfold rowR
  show _ = proj (mix (soft (scoresOf x0 x1 x2 n)) (proj (rowOf x0 n) (matOf x3))) (matOf x4) e
  unfold proj
  refine Finset.sum_congr rfl fun k _ => ?_
  rw [val_main_v26_apply]
  have e1 : lidx_main_v27 (ix2 n e) k = ix2 n k :=
    funext fun a => Fin.ext (by match a with | ⟨0, _⟩ => rfl | ⟨1, _⟩ => rfl)
  have e2 : idx_main_v26 (ridx_main_v27 (ix2 n e) k) = ix2 e k :=
    funext fun a => Fin.ext (by match a with | ⟨0, _⟩ => rfl | ⟨1, _⟩ => rfl)
  rw [e1, e2, v25_at]
  rfl

end Cert.ReferenceIdeal.RefValue

end
-- ==== Proof.FiniteInputs.lean ====
/-
  The precondition read back. It says that the absolute value of every entry of every argument array is below
  `+∞` (one comparison array per argument, reduced by `and` over both axes, the five results joined by `and`).
  An extended real whose absolute value is below `+∞` is neither infinity, so it is a real number.
-/
import proofs.«402946_j65481071398785_3_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.FiniteInputs

open Idealize.ShloMosaic Cert.Pre_finite_inputs

/-- The pattern `0x7F800000` denotes `+∞`. -/
theorem posInf_eq : Ideal.ofBits .f32 0x7F800000#32 = (⊤ : EReal) := by
  simp [Ideal.ofBits, Ideal.ieee]

/-- An extended real whose absolute value `max x (-x)` compares below `+∞` is a real number:
    `x < ⊤` excludes `⊤`, and `-x < ⊤` excludes `⊥`. -/
theorem real_of_abs_lt (x : EReal)
    (h : Ideal.cmp .olt (max x (-x)) (Ideal.ofBits .f32 0x7F800000#32) = 1#1) : ∃ r : ℝ, x = (r : EReal) := by
  rw [posInf_eq] at h
  have hlt : max x (-x) < ⊤ := by
    by_contra hn
    simp [Ideal.cmp, hn] at h
  induction x using EReal.rec with
  | bot => exact absurd hlt (by simp)
  | coe r => exact ⟨r, rfl⟩
  | top => exact absurd hlt (by simp)

/-- One argument array: where the comparison of its absolute value with the broadcast `+∞` is 1 at an index,
    the entry at that index is a real number. -/
theorem real_of_cmp {T : Shape} (hb : S_.BroadcastsInDim T (![] : Fin 0 → Fin T.rank)) (a : FVec Ideal T .f32) (i : T.Idx)
    (h : cmpf .olt (Host.absf a) (broadcastInDim T ![] hb (constant (F := Ideal) S_ .f32 0x7F800000#32)) i = 1#1) :
    ∃ r : ℝ, a i = (r : EReal) :=
  real_of_abs_lt (a i) h

variable [Cert.Pre_finite_inputs.Facts]

/-- Under the precondition every entry of the token array and of the four weight matrices is a real number. -/
theorem real_of_pre (a0 : FVec Ideal S65536x1024 .f32) (a1 a2 a3 a4 : FVec Ideal S1024x1024 .f32)
    (h : Cert.Pre_finite_inputs.fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  haveI : Subsingleton S_.Idx := ⟨fun a b => funext fun d => d.elim0⟩
  have h0 := congrFun h ValueIdx.ix0
  dsimp only [fn, fn_part1] at h0
  obtain ⟨h0123, h4⟩ := IntOp.andi_eq_one.1 h0
  obtain ⟨h012, h3⟩ := IntOp.andi_eq_one.1 h0123
  obtain ⟨h01, h2⟩ := IntOp.andi_eq_one.1 h012
  obtain ⟨h0', h1⟩ := IntOp.andi_eq_one.1 h01
  exact ⟨fun i => real_of_cmp _ a0 i (Host.reduce_andi_all _ _ _ _ _ h0' i),
    fun i => real_of_cmp _ a1 i (Host.reduce_andi_all _ _ _ _ _ h1 i),
    fun i => real_of_cmp _ a2 i (Host.reduce_andi_all _ _ _ _ _ h2 i),
    fun i => real_of_cmp _ a3 i (Host.reduce_andi_all _ _ _ _ _ h3 i),
    fun i => real_of_cmp _ a4 i (Host.reduce_andi_all _ _ _ _ _ h4 i)⟩

end Cert.FiniteInputs

end
-- ==== Proof.lean ====
/-
  The kernel computes, for each token, attention ACROSS its sixteen heads: the token's row is projected by
  three weight matrices into queries, keys and values, each read as 16 heads of 64 lanes; the score of a pair
  of heads is the lane sum of query times key scaled by `1/√64`; each row of scores becomes weights by the
  softmax; each head's output is the weighted sum of the value heads; and the row of outputs is projected by a
  fourth matrix. The kernel does this block by block (256 tokens per grid point) on weight matrices that the
  host has transposed, laid side by side and changed of format; it multiplies the queries by the literal
  `0.125` before the lane sums and adds the sixteen weighted value heads one after the other. The reference
  does it on the whole arrays with contractions, divides the lane sums by `√64`, and takes each softmax through
  one more maximum with `-∞`. Over the extended reals a change of format is the identity, a sum does not depend
  on its grouping, `√64` is `8` and `0.125` is `1/8`; under the precondition every input is a real number, so the
  projections are real and the factor `1/8` moves across the lane sum: the two results are one function of the
  inputs, entry by entry.
  The three programs' frames: the two kernels' by the pipeline's launch theorem over the body's run, the
  reference's from its run; nothing was rewritten between the kernel and its idealization.
-/
import proofs.«402946_j65481071398785_3_alg».proof.Defs
import proofs.«402946_j65481071398785_3_alg».proof.Proof.Gen.Kernel
import proofs.«402946_j65481071398785_3_alg».proof.Proof.Gen.KernelIdeal
import proofs.«402946_j65481071398785_3_alg».proof.Proof.Gen.ReferenceIdeal
import proofs.«402946_j65481071398785_3_alg».proof.Proof.Gen.Pre_finite_inputs
import proofs.«402946_j65481071398785_3_alg».proof.Proof.Gen.ReferenceIdeal.Run
import proofs.«402946_j65481071398785_3_alg».proof.Proof.Gen.ReferenceIdeal.Read
import proofs.«402946_j65481071398785_3_alg».proof.Proof.KernelFrameBits
import proofs.«402946_j65481071398785_3_alg».proof.Proof.KernelRun
import proofs.«402946_j65481071398785_3_alg».proof.Proof.RefValue
import proofs.«402946_j65481071398785_3_alg».proof.Proof.FiniteInputs
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' hpre hagree
  refine ⟨fun c => Cert.KernelIdeal.Hand.result m c, Cert.KernelIdeal.Hand.run_result m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, (hagree c).1, (hagree c).2.1, (hagree c).2.2.1, (hagree c).2.2.2.1, (hagree c).2.2.2.2]
  obtain ⟨h0, h1, h2, -, -⟩ := Cert.FiniteInputs.real_of_pre _ _ _ _ _ (hpre c)
  funext i
  obtain ⟨n, e, rfl⟩ : ∃ (n : Fin 65536) (e : Fin 1024), i = ValueIdx.ix2 n e := ⟨i 0, i 1, ValueIdx.eq_ix2 i⟩
  rw [Cert.ReferenceIdeal.RefValue.ref_apply]
  exact (congrFun (Cert.AttnSpec.rowK_eq_rowR _ _ _ _ _ (fun k => h0 _) (fun e k => h1 _) (fun e k => h2 _)) e).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
